-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x64 : Shape := ⟨3, ![2, 8192, 64]⟩
abbrev S_ : Shape := ⟨0, ![]⟩

class Facts : Prop where
  bcast_S_S2x8192x64 : S_.BroadcastsInDim S2x8192x64 (![] : Fin 0 → Fin S2x8192x64.rank)
  reducesTo_S2x8192x64_S_d0_1_2 : S2x8192x64.ReducesTo [0, 1, 2] S_
  h_S_ : 0 < S_.numel

variable [Facts]

def fn {F : FTy → Type} [FloatOps F] (main_arg0 : FVec F S2x8192x64 .f32) (main_arg1 : FVec F S2x8192x64 .f32) (main_arg2 : FVec F S2x8192x64 .f32) : IVec S_ 1 :=
  let main_v0 : FVec F S2x8192x64 .f32 := Host.absf main_arg0
  let main_cst : FVec F S_ .f32 := constant S_ .f32 0x7F800000#32
  let main_v1 : FVec F S2x8192x64 .f32 := broadcastInDim S2x8192x64 ![] bcast_S_S2x8192x64 main_cst
  let main_v2 : IVec S2x8192x64 1 := cmpf .olt main_v0 main_v1
  let main_c : IVec S_ 1 := constantI S_ 1 1#1
  let main_v3 : IVec S_ 1 := (fun x v => Host.reduce IntOp.andi x v reducesTo_S2x8192x64_S_d0_1_2 h_S_) main_v2 main_c
  let main_v4 : FVec F S2x8192x64 .f32 := Host.absf main_arg1
  let main_cst_0 : FVec F S_ .f32 := constant S_ .f32 0x7F800000#32
  let main_v5 : FVec F S2x8192x64 .f32 := broadcastInDim S2x8192x64 ![] bcast_S_S2x8192x64 main_cst_0
  let main_v6 : IVec S2x8192x64 1 := cmpf .olt main_v4 main_v5
  let main_c_1 : IVec S_ 1 := constantI S_ 1 1#1
  let main_v7 : IVec S_ 1 := (fun x v => Host.reduce IntOp.andi x v reducesTo_S2x8192x64_S_d0_1_2 h_S_) main_v6 main_c_1
  let main_v8 : IVec S_ 1 := andi main_v3 main_v7
  let main_v9 : FVec F S2x8192x64 .f32 := Host.absf main_arg2
  let main_cst_2 : FVec F S_ .f32 := constant S_ .f32 0x7F800000#32
  let main_v10 : FVec F S2x8192x64 .f32 := broadcastInDim S2x8192x64 ![] bcast_S_S2x8192x64 main_cst_2
  let main_v11 : IVec S2x8192x64 1 := cmpf .olt main_v9 main_v10
  let main_c_3 : IVec S_ 1 := constantI S_ 1 1#1
  let main_v12 : IVec S_ 1 := (fun x v => Host.reduce IntOp.andi x v reducesTo_S2x8192x64_S_d0_1_2 h_S_) main_v11 main_c_3
  let main_v13 : IVec S_ 1 := andi main_v8 main_v12
  main_v13
-- ==== Kernel.lean ====
abbrev S2x8192x64 : Shape := ⟨3, ![2, 8192, 64]⟩
abbrev S_ : Shape := ⟨0, ![]⟩
abbrev S2x8192x1 : Shape := ⟨3, ![2, 8192, 1]⟩
abbrev S2x8192x65 : Shape := ⟨3, ![2, 8192, 65]⟩
abbrev S2x1024x64 : Shape := ⟨3, ![2, 1024, 64]⟩
abbrev S2x1024x65 : Shape := ⟨3, ![2, 1024, 65]⟩
abbrev S2x1024x1 : Shape := ⟨3, ![2, 1024, 1]⟩
abbrev S2x1024x1024 : Shape := ⟨3, ![2, 1024, 1024]⟩
abbrev S2x1024 : Shape := ⟨2, ![2, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x8192x64, .f32⟩
  | .hbm, ⟨1, _⟩ => ⟨S2x8192x64, .f32⟩
  | .hbm, ⟨2, _⟩ => ⟨S2x8192x64, .f32⟩
  | .hbm, ⟨3, _⟩ => ⟨S2x8192x64, .bf16⟩
  | .hbm, ⟨4, _⟩ => ⟨S_, .f32⟩
  | .hbm, ⟨5, _⟩ => ⟨S2x8192x1, .f32⟩
  | .hbm, ⟨6, _⟩ => ⟨S2x8192x65, .f32⟩
  | .hbm, ⟨7, _⟩ => ⟨S2x8192x65, .bf16⟩
  | .hbm, ⟨8, _⟩ => ⟨S2x8192x64, .f32⟩
  | .local _ .vmem, ⟨0, _⟩ => ⟨S2x1024x64, .f32⟩
  | .local _ .vmem, ⟨1, _⟩ => ⟨S2x1024x64, .f32⟩
  | .local _ .vmem, ⟨2, _⟩ => ⟨S2x1024x64, .bf16⟩
  | .local _ .vmem, ⟨3, _⟩ => ⟨S2x1024x64, .bf16⟩
  | .local _ .vmem, ⟨4, _⟩ => ⟨S2x1024x65, .bf16⟩
  | .local _ .vmem, ⟨5, _⟩ => ⟨S2x1024x65, .bf16⟩
  | .local _ .vmem, ⟨6, _⟩ => ⟨S2x1024x64, .f32⟩
  | .local _ .vmem, ⟨7, _⟩ => ⟨S2x1024x64, .f32⟩
  | .local _ .vmem, ⟨8, _⟩ => ⟨S2x1024x1, .f32⟩
  | .local _ .vmem, ⟨9, _⟩ => ⟨S2x1024x65, .f32⟩
  | .local _ .vmem, ⟨10, _⟩ => ⟨S2x1024x64, .bf16⟩
  | _, _ => ⟨S2x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_23 : BitVec 32 := 0#32
  let v32 : BitVec 1 := Scalar.cmpi .ne v31 c0_i32_23
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S2x8192x1 : S_.BroadcastsInDim S2x8192x1 (![] : Fin 0 → Fin S2x8192x1.rank)
  concatenates_S2x8192x64_S2x8192x1_S2x8192x65_d2 : Shape.Concatenates [S2x8192x64, S2x8192x1] S2x8192x65 2
  inb_S2x1024x1_S2x1024x1_0_0_0 : ∀ a, (![0, 0, 0] : Fin 3 → Nat) a + S2x1024x1.size a ≤ S2x1024x1.size a
  h_S2x1024x1 : 0 < S2x1024x1.numel
  shapeCasts_S2x1024x1_S2x1024x1 : S2x1024x1.ShapeCasts S2x1024x1
  inb_S2x1024x65_S2x1024x65_0_0_0 : ∀ a, (![0, 0, 0] : Fin 3 → Nat) a + S2x1024x65.size a ≤ S2x1024x65.size a
  h_S2x1024x65 : 0 < S2x1024x65.numel
  shapeCasts_S2x1024x65_S2x1024x65 : S2x1024x65.ShapeCasts S2x1024x65
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2x1024x64 : S2x1024x64.ShapeCasts S2x1024x64
  packedbf16_S2x1024x64_S2x1024x64_0_0_0 : (Rect.unit (s := S2x1024x64) ![0, 0, 0] S2x1024x64.size inb_S2x1024x64_S2x1024x64_0_0_0).PackedRows (EltTy.packing .bf16)
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  broadcasts_S2x1024x1_S2x1024x65 : S2x1024x1.Broadcasts S2x1024x65
  slices_S2x1024x65_o0_0_0_S2x1024x64 : S2x1024x65.Slices ![0, 0, 0] S2x1024x64
  slices_S2x1024x65_o0_0_64_S2x1024x1 : S2x1024x65.Slices ![0, 0, 64] S2x1024x1
  broadcasts_S2x1024x1_S2x1024x64 : S2x1024x1.Broadcasts S2x1024x64
  dot_S2x1024x64_S2x1024x64_S2x1024x1024_2_2_1_1_0_0_wf : DotDims.WF S2x1024x64 S2x1024x64 S2x1024x1024 [2] [2] [1] [1] [0] [0]
  dot_S2x1024x1024_S2x1024x65_S2x1024x65_2_1_1_2_0_0_wf : DotDims.WF S2x1024x1024 S2x1024x65 S2x1024x65 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S2x8192x64.size a
  hwx0_0 : ∀ i : grid0.Coords, EltTy.bits .f32 = 32 ∨ (Rect.block (s := S2x8192x64) S2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S2x8192x64.size a
  hwx0_1 : ∀ i : grid0.Coords, EltTy.bits .bf16 = 32 ∨ (Rect.block (s := S2x8192x64) S2x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x65.size a ≤ S2x8192x65.size a
  hwx0_2 : ∀ i : grid0.Coords, EltTy.bits .bf16 = 32 ∨ (Rect.block (s := S2x8192x65) S2x1024x65.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x64.size a ≤ S2x8192x64.size a
  hwx0_3 : ∀ i : grid0.Coords, EltTy.bits .f32 = 32 ∨ (Rect.block (s := S2x8192x64) S2x1024x64.size (cc0_transform_3 i) (hinb0_3 i)).WholeWords (EltTy.packing .f32)

variable [Facts₀]

def dot_S2x1024x64_S2x1024x64_S2x1024x1024_2_2_1_1_0_0 : DotDims S2x1024x64 S2x1024x64 S2x1024x1024 where
  lhsContracting := [2]
  rhsContracting := [2]
  lhsNonContracting := [1]
  rhsNonContracting := [1]
  lhsBatch := [0]
  rhsBatch := [0]
  wf := dot_S2x1024x64_S2x1024x64_S2x1024x1024_2_2_1_1_0_0_wf
def dot_S2x1024x1024_S2x1024x65_S2x1024x65_2_1_1_2_0_0 : DotDims S2x1024x1024 S2x1024x65 S2x1024x65 where
  lhsContracting := [2]
  rhsContracting := [1]
  lhsNonContracting := [1]
  rhsNonContracting := [2]
  lhsBatch := [0]
  rhsBatch := [0]
  wf := dot_S2x1024x1024_S2x1024x65_S2x1024x65_2_1_1_2_0_0_wf

abbrev win0_0 : Pipeline.Window sig grid0 :=
  Pipeline.Window.ofSpec (Memref.whole main_arg0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x1024x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x8192x64 : Shape := ⟨3, ![2, 8192, 64]⟩
abbrev S2x8192x8192 : Shape := ⟨3, ![2, 8192, 8192]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x64, .f32⟩
  | .hbm, ⟨1, _⟩ => ⟨S2x8192x64, .f32⟩
  | .hbm, ⟨2, _⟩ => ⟨S2x8192x64, .f32⟩
  | .hbm, ⟨3, _⟩ => ⟨S2x8192x8192, .f32⟩
  | .hbm, ⟨4, _⟩ => ⟨S_, .f32⟩
  | .hbm, ⟨5, _⟩ => ⟨S2x8192x8192, .f32⟩
  | .hbm, ⟨6, _⟩ => ⟨S2x8192x8192, .f32⟩
  | .hbm, ⟨7, _⟩ => ⟨S_, .f32⟩
  | .hbm, ⟨8, _⟩ => ⟨S2x8192, .f32⟩
  | .hbm, ⟨9, _⟩ => ⟨S_, .f32⟩
  | .hbm, ⟨10, _⟩ => ⟨S2x8192, .f32⟩
  | .hbm, ⟨11, _⟩ => ⟨S2x8192, .f32⟩
  | .hbm, ⟨12, _⟩ => ⟨S2x8192x1, .f32⟩
  | .hbm, ⟨13, _⟩ => ⟨S2x8192x8192, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S2x8192x8192, .f32⟩
  | .hbm, ⟨20, _⟩ => ⟨S2x8192x8192, .f32⟩
  | .hbm, ⟨21, _⟩ => ⟨S2x8192x64, .f32⟩
  | _, _ => ⟨S2x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x8192x8192 : S_.BroadcastsInDim S2x8192x8192 (![] : Fin 0 → Fin S2x8192x8192.rank)
  reducesTo_S2x8192x8192_S2x8192_d2 : S2x8192x8192.ReducesTo [2] S2x8192
  h_S_ : 0 < S_.numel
  bcast_S_S2x8192 : S_.BroadcastsInDim S2x8192 (![] : Fin 0 → Fin S2x8192.rank)
  bcast_S2x8192_S2x8192x1_0_1 : S2x8192.BroadcastsInDim S2x8192x1 (![0, 1] : Fin 2 → Fin S2x8192x1.rank)
  bcast_S2x8192x1_S2x8192x8192_0_1_2 : S2x8192x1.BroadcastsInDim S2x8192x8192 (![0, 1, 2] : Fin 3 → Fin S2x8192x8192.rank)
  dot_S2x8192x64_S2x8192x64_S2x8192x8192_2_2_1_1_0_0_wf : DotDims.WF S2x8192x64 S2x8192x64 S2x8192x8192 [2] [2] [1] [1] [0] [0]
  dot_S2x8192x8192_S2x8192x64_S2x8192x64_2_1_1_2_0_0_wf : DotDims.WF S2x8192x8192 S2x8192x64 S2x8192x64 [2] [1] [1] [2] [0] [0]

variable [Facts₀]

def dot_S2x8192x64_S2x8192x64_S2x8192x8192_2_2_1_1_0_0 : DotDims S2x8192x64 S2x8192x64 S2x8192x8192 where
  lhsContracting := [2]
  rhsContracting := [2]
  lhsNonContracting := [1]
  rhsNonContracting := [1]
  lhsBatch := [0]
  rhsBatch := [0]
  wf := dot_S2x8192x64_S2x8192x64_S2x8192x8192_2_2_1_1_0_0_wf
def dot_S2x8192x8192_S2x8192x64_S2x8192x64_2_1_1_2_0_0 : DotDims S2x8192x8192 S2x8192x64 S2x8192x64 where
  lhsContracting := [2]
  rhsContracting := [1]
  lhsNonContracting := [1]
  rhsNonContracting := [2]
  lhsBatch := [0]
  rhsBatch := [0]
  wf := dot_S2x8192x8192_S2x8192x64_S2x8192x64_2_1_1_2_0_0_wf

class Facts : Prop extends Facts₀ where

variable [Facts]
-- ==== Proof.Pieces.lean ====
/-
  What each control case of the kernel body leaves in the three buffers it keeps between grid points (the running maximum, the
  running sums, the scaled query block) and, in the last case, in the output block: each is one of the body's pure terms,
  applied to the blocks the point reads and to what the point before left.
-/
import proofs.«421855_j39676907886676_3_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl

variable (c : Dev nD) (i : grid0.Coords) (a2 : Memref sig .tc .vmem S2x1024x64 .f32) (h2 : a2.IsWhole) (a3 : Memref sig .tc .vmem S2x1024x64 .bf16) (h3 : a3.IsWhole) (a4 : Memref sig .tc .vmem S2x1024x65 .bf16) (h4 : a4.IsWhole) (a5 : Memref sig .tc .vmem S2x1024x64 .f32) (h5 : a5.IsWhole) (a6 : Memref sig .tc .vmem S2x1024x1 .f32) (h6 : a6.IsWhole) (a7 : Memref sig .tc .vmem S2x1024x65 .f32) (h7 : a7.IsWhole) (a8 : Memref sig .tc .vmem S2x1024x64 .bf16) (h8 : a8.IsWhole)

/-! ## First key block of a query tile: the buffers are reset, then updated -/

theorem sA0 (hc0 : cond0_0 i) (hc1 : ¬cond0_1 i) (x0 : Vec F S2x1024x64 .f32) (x1 : Vec F S2x1024x64 .bf16) (x2 : Vec F S2x1024x65 .bf16) :
    sout0_A_0 c i a2 h2 a3 h3 a4 h4 a5 h5 a6 h6 a7 h7 a8 h8 hc0 hc1 x0 x1 x2 = k0_pay8 (k0_pay4 x0) x1 k0_pay2 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  -- the later store covers the buffer; its payload loads back the reset maximum and the scaled query just stored
  rw [View.canon_cons_unit_zero (S := S2x1024x1) hz]
  simp only [View.readAt_eq_ld, h2.read_unread, h3.read_unread, View.ld_unit_zero (S := S2x1024x64) hz, View.readCov_unit_zero (S := S2x1024x64) _ hz, View.readCov_unit_zero (S := S2x1024x1) _ hz]

theorem sA1 (hc0 : cond0_0 i) (hc1 : ¬cond0_1 i) (x0 : Vec F S2x1024x64 .f32) (x1 : Vec F S2x1024x64 .bf16) (x2 : Vec F S2x1024x65 .bf16) :
    sout0_A_1 c i a2 h2 a3 h3 a4 h4 a5 h5 a6 h6 a7 h7 a8 h8 hc0 hc1 x0 x1 x2 = k0_pay7 (k0_pay4 x0) x1 x2 k0_pay2 k0_pay3 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  -- the later store covers the buffer; its payload loads back the three buffers as the reset left them
  rw [View.canon_cons_unit_zero (S := S2x1024x65) hz]
  simp only [View.readAt_eq_ld, h2.read_unread, h3.read_unread, h4.read_unread, View.ld_unit_zero (S := S2x1024x64) hz, View.ld_unit_zero (S := S2x1024x65) hz,
    View.readCov_unit_zero (S := S2x1024x64) _ hz, View.readCov_unit_zero (S := S2x1024x65) _ hz, View.readCov_unit_zero (S := S2x1024x1) _ hz]

theorem sA2 (hc0 : cond0_0 i) (hc1 : ¬cond0_1 i) (x0 : Vec F S2x1024x64 .f32) (x1 : Vec F S2x1024x64 .bf16) (x2 : Vec F S2x1024x65 .bf16) :
    sout0_A_2 c i a2 h2 a3 h3 a4 h4 a5 h5 a6 h6 a7 h7 a8 h8 hc0 hc1 x0 x1 x2 = k0_pay4 x0 := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  -- one store, of the scaled query block
  rw [View.canon_unit_zero hz]
  simp only [View.readAt_eq_ld, h2.read_unread, View.ld_unit_zero (S := S2x1024x64) hz]

/-! ## A middle key block: the buffers are updated from what the point before left -/

theorem sB0 (hc0 : ¬cond0_0 i) (hc1 : ¬cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_B_0 c i a2 h2 a3 h3 a4 h4 a5 h5 a6 h6 a7 h7 a8 h8 hc0 hc1 x0 x1 x2 xs0 xs1 xs2 = k0_pay8 xs2 x1 xs0 := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  -- one store; every block it reads is whole and read through zero offsets
  rw [View.canon_unit_zero hz]
  simp only [View.readAt_eq_ld, h3.read_unread, h6.read_unread, h8.read_unread, View.ld_unit_zero (S := S2x1024x64) hz, View.ld_unit_zero (S := S2x1024x1) hz]

theorem sB1 (hc0 : ¬cond0_0 i) (hc1 : ¬cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_B_1 c i a2 h2 a3 h3 a4 h4 a5 h5 a6 h6 a7 h7 a8 h8 hc0 hc1 x0 x1 x2 xs0 xs1 xs2 = k0_pay7 xs2 x1 x2 xs0 xs1 := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  -- one store; every block it reads is whole and read through zero offsets
  rw [View.canon_unit_zero hz]
  simp only [View.readAt_eq_ld, h3.read_unread, h4.read_unread, h6.read_unread, h7.read_unread, h8.read_unread,
    View.ld_unit_zero (S := S2x1024x64) hz, View.ld_unit_zero (S := S2x1024x65) hz, View.ld_unit_zero (S := S2x1024x1) hz]

theorem sB2 (hc0 : ¬cond0_0 i) (hc1 : ¬cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_B_2 c i a2 h2 a3 h3 a4 h4 a5 h5 a6 h6 a7 h7 a8 h8 hc0 hc1 x0 x1 x2 xs0 xs1 xs2 = xs2 := by
  rfl

/-! ## The last key block: the same update, and the output block is the quotient -/

theorem sC0 (hc0 : ¬cond0_0 i) (hc1 : cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_C_0 c i a2 h2 a3 h3 a4 h4 a5 h5 a6 h6 a7 h7 a8 h8 hc0 hc1 x0 x1 x2 xs0 xs1 xs2 = k0_pay8 xs2 x1 xs0 := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  -- one store; every block it reads is whole and read through zero offsets
  rw [View.canon_unit_zero hz]
  simp only [View.readAt_eq_ld, h3.read_unread, h6.read_unread, h8.read_unread, View.ld_unit_zero (S := S2x1024x64) hz, View.ld_unit_zero (S := S2x1024x1) hz]

theorem sC1 (hc0 : ¬cond0_0 i) (hc1 : cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_C_1 c i a2 h2 a3 h3 a4 h4 a5 h5 a6 h6 a7 h7 a8 h8 hc0 hc1 x0 x1 x2 xs0 xs1 xs2 = k0_pay7 xs2 x1 x2 xs0 xs1 := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  -- one store; every block it reads is whole and read through zero offsets
  rw [View.canon_unit_zero hz]
  simp only [View.readAt_eq_ld, h3.read_unread, h4.read_unread, h6.read_unread, h7.read_unread, h8.read_unread,
    View.ld_unit_zero (S := S2x1024x64) hz, View.ld_unit_zero (S := S2x1024x65) hz, View.ld_unit_zero (S := S2x1024x1) hz]

theorem sC2 (hc0 : ¬cond0_0 i) (hc1 : cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    sout0_C_2 c i a2 h2 a3 h3 a4 h4 a5 h5 a6 h6 a7 h7 a8 h8 hc0 hc1 x0 x1 x2 xs0 xs1 xs2 = xs2 := by
  rfl

theorem oC3 (hc0 : ¬cond0_0 i) (hc1 : cond0_1 i) (x0 : Vec F S2x1024x64 .f32) (x1 : Vec F S2x1024x64 .bf16) (x2 : Vec F S2x1024x65 .bf16) (xs0 : Vec F S2x1024x1 .f32) (xs1 : Vec F S2x1024x65 .f32) (xs2 : Vec F S2x1024x64 .bf16) :
    out0_C_3 c i a2 h2 a3 h3 a4 h4 a5 h5 a6 h6 a7 h7 a8 h8 hc0 hc1 x0 x1 x2 xs0 xs1 xs2 = k0_pay1 (k0_pay7 xs2 x1 x2 xs0 xs1) := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  -- one store, of the quotient of the running sums loaded back after their update at this point
  rw [View.canon_unit_zero hz]
  simp only [View.readAt_eq_ld, h3.read_unread, h4.read_unread, h6.read_unread, h7.read_unread, h8.read_unread,
    View.ld_unit_zero (S := S2x1024x64) hz, View.ld_unit_zero (S := S2x1024x65) hz, View.ld_unit_zero (S := S2x1024x1) hz, View.readCov_unit_zero (S := S2x1024x65) _ hz]

end Cert.KernelIdeal.Pieces

end
-- ==== Proof.SoftmaxMath.lean ====
/-
  The arithmetic of a softmax-weighted average accumulated block by block, on the extended reals.

  A row of scores `s k` and values `v k` is visited in blocks. A running value `M` (any real number: the proof never
  needs it to be the maximum) and a running sum `a = ∑ exp (s k - M) * v k` over the indices seen so far are kept; a new block
  replaces `M` by a real `M'` and `a` by `exp (M - M') * a + ∑ exp (s k - M') * v k` over the block, which is the sum
  `∑ exp (s k - M') * v k` over the indices seen so far, because `exp (M - M') * exp (s k - M) = exp (s k - M')`.
  At the end the quotient of two such sums taken with the same `M` does not depend on `M`:
  `(∑ exp (s k - M) * v k) / (∑ exp (s k - M)) = (∑ exp (s k) * v k) / (∑ exp (s k))`.
  Everything is finite here, so the extended reals only appear as the coercions of real numbers and as the `-∞` a running
  maximum starts from.
-/
import Idealize.ShloMosaic.PureOps.Ideal
import Mathlib.Analysis.SpecialFunctions.Exp
import Mathlib.Algebra.BigOperators.Field

noncomputable section

open scoped BigOperators
open Idealize.ShloMosaic

namespace Cert.SoftmaxMath

/-! ## The constants the two programs spell -/

/-- The pattern of `-∞`. -/
theorem ofBits_neg_inf : Ideal.ofBits .f32 0xFF800000#32 = ⊥ := by
  simp [Ideal.ofBits, Ideal.ieee]

/-- The pattern of `+0.0`. -/
theorem ofBits_zero : Ideal.ofBits .f32 0x00000000#32 = 0 := by
  simp [Ideal.ofBits, Ideal.ieee]

/-- The pattern of `1.0`. -/
theorem ofBits_one : Ideal.ofBits .f32 0x3F800000#32 = ((1 : ℝ) : EReal) := by
  simp [Ideal.ofBits, Ideal.ieee, -EReal.coe_mul]; norm_num

/-- The pattern of `0.125`. -/
theorem ofBits_eighth : Ideal.ofBits .f32 0x3E000000#32 = ((1 / 8 : ℝ) : EReal) := by
  simp [Ideal.ofBits, Ideal.ieee, -EReal.coe_mul]; norm_num

/-- The pattern of `8.0`. -/
theorem ofBits_eight : Ideal.ofBits .f32 0x41000000#32 = ((8 : ℝ) : EReal) := by
  simp [Ideal.ofBits, Ideal.ieee, -EReal.coe_mul]; norm_num

/-! ## Sums and maxima of real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of two reals is the maximum of the coercions. -/
theorem coe_max (x y : ℝ) : ((max x y : ℝ) : EReal) = max (x : EReal) (y : EReal) :=
  EReal.coe_strictMono.monotone.map_max

/-- The maximum, taken from `-∞`, of finitely many reals — at least one — is a real. -/
theorem fold_max_bot_coe {ι : Type*} (s : Finset ι) (hs : s.Nonempty) (g : ι → ℝ) :
    ∃ r : ℝ, s.fold max (⊥ : EReal) (fun k => (g k : EReal)) = (r : EReal) := by
  induction hs using Finset.Nonempty.cons_induction with
  | singleton a => exact ⟨g a, by rw [Finset.fold_singleton]; exact max_bot_right _⟩
  | cons a s ha hs ih =>
    obtain ⟨r, hr⟩ := ih
    exact ⟨max (g a) r, by rw [Finset.fold_cons, hr, coe_max]⟩

/-- The running maximum after a block: from `-∞` or from a real, against the block's maximum, it is a real. -/
theorem running_max_real {n : Nat} (hn : 0 < n) (mp : EReal) (hmp : mp = ⊥ ∨ ∃ M : ℝ, mp = (M : EReal)) (σ : Fin n → ℝ) :
    ∃ M' : ℝ, max mp ((Finset.univ : Finset (Fin n)).fold max (⊥ : EReal) (fun k => (σ k : EReal))) = (M' : EReal) := by
  obtain ⟨r, hr⟩ := fold_max_bot_coe (Finset.univ : Finset (Fin n)) ⟨⟨0, hn⟩, Finset.mem_univ _⟩ σ
  rw [hr]
  rcases hmp with h | ⟨M, h⟩
  · exact ⟨r, by rw [h]; exact max_bot_left _⟩
  · exact ⟨max M r, by rw [h, coe_max]⟩

/-! ## One block's update of the running sum -/

/-- The first block: the sum restarts. `exp (-∞ - M') = 0` scales the cleared sum, and the block's terms are real. -/
theorem first_block {n : Nat} (M' : ℝ) (σ v : Fin n → ℝ) :
    Ideal.exp ((⊥ : EReal) - (M' : EReal)) * 0 + ∑ k : Fin n, Ideal.exp ((σ k : EReal) - (M' : EReal)) * (v k : EReal)
      = ((∑ k : Fin n, Real.exp (σ k - M') * v k : ℝ) : EReal) := by
  rw [mul_zero, zero_add, coe_sum]
  refine Finset.sum_congr rfl fun k _ => ?_
  rw [← EReal.coe_sub, Ideal.exp_coe, ← EReal.coe_mul]

/-- A later block: the running sum `a`, taken with `M`, is rescaled to `M'` and the block's terms are added. -/
theorem later_block {n : Nat} (M M' a : ℝ) (σ v : Fin n → ℝ) :
    Ideal.exp ((M : EReal) - (M' : EReal)) * (a : EReal) + ∑ k : Fin n, Ideal.exp ((σ k : EReal) - (M' : EReal)) * (v k : EReal)
      = ((Real.exp (M - M') * a + ∑ k : Fin n, Real.exp (σ k - M') * v k : ℝ) : EReal) := by
  rw [EReal.coe_add, coe_sum, ← EReal.coe_sub, Ideal.exp_coe, ← EReal.coe_mul]
  refine congrArg _ (Finset.sum_congr rfl fun k _ => ?_)
  rw [← EReal.coe_sub, Ideal.exp_coe, ← EReal.coe_mul]

/-- Rescaling a sum taken with `M` to `M'`. -/
theorem rescale {ι : Type*} (P : Finset ι) (M M' : ℝ) (s w : ι → ℝ) :
    Real.exp (M - M') * ∑ p ∈ P, Real.exp (s p - M) * w p = ∑ p ∈ P, Real.exp (s p - M') * w p := by
  rw [Finset.mul_sum]
  refine Finset.sum_congr rfl fun p _ => ?_
  rw [← mul_assoc, ← Real.exp_add]
  congr 2
  ring

/-! ## The quotient at the end -/

/-- The weights' sum is positive. -/
theorem sum_exp_pos {ι : Type*} [Fintype ι] [Nonempty ι] (s : ι → ℝ) : 0 < ∑ k : ι, Real.exp (s k) :=
  Finset.sum_pos (fun k _ => Real.exp_pos _) Finset.univ_nonempty

/-- The softmax-weighted average of `v`, with no maximum subtracted. -/
def avg {ι : Type*} [Fintype ι] (s v : ι → ℝ) : ℝ := (∑ k : ι, Real.exp (s k) * v k) / (∑ k : ι, Real.exp (s k))

/-- The quotient of the two running sums taken with the same `M` is the average, whatever `M` is. -/
theorem quot_eq_avg {ι : Type*} [Fintype ι] [Nonempty ι] (M : ℝ) (s v : ι → ℝ) :
    (∑ k : ι, Real.exp (s k - M) * v k) * (1 / ∑ k : ι, Real.exp (s k - M) * 1) = avg s v := by
  have hM : Real.exp (-M) ≠ 0 := (Real.exp_pos _).ne'
  have hz : (∑ k : ι, Real.exp (s k)) ≠ 0 := (sum_exp_pos s).ne'
  have e1 : ∑ k : ι, Real.exp (s k - M) * v k = Real.exp (-M) * ∑ k : ι, Real.exp (s k) * v k := by
    rw [Finset.mul_sum]
    refine Finset.sum_congr rfl fun k _ => ?_
    rw [sub_eq_add_neg, Real.exp_add]; ring
  have e2 : ∑ k : ι, Real.exp (s k - M) * 1 = Real.exp (-M) * ∑ k : ι, Real.exp (s k) := by
    rw [Finset.mul_sum]
    refine Finset.sum_congr rfl fun k _ => ?_
    rw [sub_eq_add_neg, Real.exp_add]; ring
  rw [e1, e2, avg]
  field_simp

/-- The same average as the reference takes it: each weight divided by the weights' sum first, then the weighted sum. -/
theorem normalized_eq_avg {ι : Type*} [Fintype ι] [Nonempty ι] (M : ℝ) (s v : ι → ℝ) :
    ∑ k : ι, (Real.exp (s k - M) * (1 / ∑ k' : ι, Real.exp (s k' - M))) * v k = avg s v := by
  rw [← quot_eq_avg M s v, Finset.sum_mul]
  refine Finset.sum_congr rfl fun k _ => ?_
  simp only [mul_one]
  ring

end Cert.SoftmaxMath

end
-- ==== Proof.PayIdx.lean ====
/-
  The body's pure terms read at one index, on the extended reals: the scaled query, the scores of a key block (a sum over the 64
  features), the running maximum (the maximum of the old one and the block's scores), the running sums (the old ones rescaled plus
  the block's weighted values: a sum over the block's 1024 key rows), and the final quotient by column 64.
-/
import proofs.«421855_j39676907886676_3_alg».proof.Proof.Gen.KernelIdeal.Skeleton
import proofs.«421855_j39676907886676_3_alg».proof.Proof.SoftmaxMath
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.PayIdx

open Cert.KernelIdeal Cert.KernelIdeal.Gen

/-! ## Layout operations at a rank-3 index, and the exponential at an index -/

section Layout
variable {α : Type}

/-- A vector with a unit last axis, broadcast along that axis, reads its one column everywhere: the entry at `(a, b, c)` is the
    operand's at `(a, b, 0)`. On an axis of extent one both indices are `0`, so no extent is excluded. -/
theorem broadcastTo_lastUnit_apply {n0 n1 n2 : Nat} (x : (⟨3, ![n0, n1, 1]⟩ : Shape).Idx → α)
    (h : (⟨3, ![n0, n1, 1]⟩ : Shape).Broadcasts ⟨3, ![n0, n1, n2]⟩) (a : Fin n0) (b : Fin n1) (c : Fin n2) :
    broadcastTo ⟨3, ![n0, n1, n2]⟩ x h (ix3 a b c) = x (ix3 a b 0) :=
  broadcastTo_apply x h (ix3 a b c) (ix3 a b 0) fun d => match d with
    | ⟨0, _⟩ => by
      show a.val = if n0 = 1 then 0 else a.val
      have := a.isLt
      split_ifs <;> omega
    | ⟨1, _⟩ => by
      show b.val = if n1 = 1 then 0 else b.val
      have := b.isLt
      split_ifs <;> omega
    | ⟨2, _⟩ => by
      show 0 = if (1 : Nat) = 1 then 0 else c.val
      rw [if_pos rfl]

/-- A matrix of rows `[n0, n1]` cast to the column form `[n0, n1, 1]` keeps its entries: both indices have the same row-major position. -/
theorem shapeCast_addLastUnit_apply {n0 n1 : Nat} (x : (⟨2, ![n0, n1]⟩ : Shape).Idx → α)
    (h : (⟨2, ![n0, n1]⟩ : Shape).ShapeCasts ⟨3, ![n0, n1, 1]⟩) (a : Fin n0) (b : Fin n1) (z : Fin 1) :
    shapeCast ⟨3, ![n0, n1, 1]⟩ x h (ix3 a b z) = x (ix2 a b) :=
  shapeCast_apply x h (ix3 a b z) (ix2 a b) (by
    rw [Shape.rowMajor_val_two, Shape.rowMajor_val_three]
    show a.val * n1 + b.val = (a.val * n1 + b.val) * 1 + z.val
    have := z.isLt
    omega)

/-- The exponential of a vector at an index is the extended reals' exponential of the entry. -/
theorem exp_apply {s : Shape} {φ : FTy} (a : FVec Ideal s φ) (i : s.Idx) : exp a i = Ideal.exp (a i) := rfl

end Layout

/-! ## The two contractions at an index

Each is a batched product with one contracting axis: the coordinates of the two operand indices are read off the dimension
numbers axis by axis, and the sum over the contraction shape's one axis is re-indexed by that axis's coordinate. -/

section Contractions

/-! The scores' dimension numbers: batch axis 0 on both sides, the feature axis 2 contracted on both, rows from axis 1. -/
theorem lhs_scores_0 (i : S2x1024x1024.Idx) (q : dot_S2x1024x64_S2x1024x64_S2x1024x1024_2_2_1_1_0_0.contr.Idx) :
    (dot_S2x1024x64_S2x1024x64_S2x1024x1024_2_2_1_1_0_0.lhsIdx i q 0).val = (i 0).val := by
  unfold DotDims.lhsIdx
  rw [dif_pos (show (0 : Fin S2x1024x64.rank) ∈ dot_S2x1024x64_S2x1024x64_S2x1024x1024_2_2_1_1_0_0.lhsBatch by decide)]
  rfl
theorem lhs_scores_1 (i : S2x1024x1024.Idx) (q : dot_S2x1024x64_S2x1024x64_S2x1024x1024_2_2_1_1_0_0.contr.Idx) :
    (dot_S2x1024x64_S2x1024x64_S2x1024x1024_2_2_1_1_0_0.lhsIdx i q 1).val = (i 1).val := by
  unfold DotDims.lhsIdx
  rw [dif_neg (show ¬(1 : Fin S2x1024x64.rank) ∈ dot_S2x1024x64_S2x1024x64_S2x1024x1024_2_2_1_1_0_0.lhsBatch by decide), dif_pos (show (1 : Fin S2x1024x64.rank) ∈ dot_S2x1024x64_S2x1024x64_S2x1024x1024_2_2_1_1_0_0.lhsNonContracting by decide)]
  rfl
theorem lhs_scores_2 (i : S2x1024x1024.Idx) (q : dot_S2x1024x64_S2x1024x64_S2x1024x1024_2_2_1_1_0_0.contr.Idx) :
    (dot_S2x1024x64_S2x1024x64_S2x1024x1024_2_2_1_1_0_0.lhsIdx i q 2).val = (q ⟨0, by decide⟩).val :=
  dot_S2x1024x64_S2x1024x64_S2x1024x1024_2_2_1_1_0_0.lhsIdx_val_of_single rfl i q
theorem rhs_scores_0 (i : S2x1024x1024.Idx) (q : dot_S2x1024x64_S2x1024x64_S2x1024x1024_2_2_1_1_0_0.contr.Idx) :
    (dot_S2x1024x64_S2x1024x64_S2x1024x1024_2_2_1_1_0_0.rhsIdx i q 0).val = (i 0).val := by
  unfold DotDims.rhsIdx
  rw [dif_pos (show (0 : Fin S2x1024x64.rank) ∈ dot_S2x1024x64_S2x1024x64_S2x1024x1024_2_2_1_1_0_0.rhsBatch by decide)]
  rfl
theorem rhs_scores_1 (i : S2x1024x1024.Idx) (q : dot_S2x1024x64_S2x1024x64_S2x1024x1024_2_2_1_1_0_0.contr.Idx) :
    (dot_S2x1024x64_S2x1024x64_S2x1024x1024_2_2_1_1_0_0.rhsIdx i q 1).val = (i 2).val := by
  unfold DotDims.rhsIdx
  rw [dif_neg (show ¬(1 : Fin S2x1024x64.rank) ∈ dot_S2x1024x64_S2x1024x64_S2x1024x1024_2_2_1_1_0_0.rhsBatch by decide), dif_pos (show (1 : Fin S2x1024x64.rank) ∈ dot_S2x1024x64_S2x1024x64_S2x1024x1024_2_2_1_1_0_0.rhsNonContracting by decide)]
  rfl
theorem rhs_scores_2 (i : S2x1024x1024.Idx) (q : dot_S2x1024x64_S2x1024x64_S2x1024x1024_2_2_1_1_0_0.contr.Idx) :
    (dot_S2x1024x64_S2x1024x64_S2x1024x1024_2_2_1_1_0_0.rhsIdx i q 2).val = (q ⟨0, by decide⟩).val :=
  dot_S2x1024x64_S2x1024x64_S2x1024x1024_2_2_1_1_0_0.rhsIdx_val_of_single rfl i q

/-- The scores' product into the zero accumulator, at `(b, r, kk)`: the sum over the 64 features of the left operand's row `r`
    times the right operand's row `kk`. -/
theorem matmul_scores_apply {φ₁ φ₂ : FTy} (x : FVec Ideal S2x1024x64 φ₁) (y : FVec Ideal S2x1024x64 φ₂) (b : Fin 2) (r kk : Fin 1024) :
    FloatOps.matmul dot_S2x1024x64_S2x1024x64_S2x1024x1024_2_2_1_1_0_0 none x y (constant (F := Ideal) S2x1024x1024 .f32 0x00000000#32) (ix3 b r kk)
      = ∑ d : Fin 64, x (ix3 b r d) * y (ix3 b kk d) := by
  rw [Ideal.matmul_constant_zero_apply, ← Equiv.sum_comp (contrEquiv1 dot_S2x1024x64_S2x1024x64_S2x1024x1024_2_2_1_1_0_0 64 rfl rfl).symm]
  refine Finset.sum_congr rfl fun d _ => ?_
  have hk := contrEquiv1_symm_val dot_S2x1024x64_S2x1024x64_S2x1024x1024_2_2_1_1_0_0 64 rfl rfl d
  have el : dot_S2x1024x64_S2x1024x64_S2x1024x1024_2_2_1_1_0_0.lhsIdx (ix3 b r kk) ((contrEquiv1 dot_S2x1024x64_S2x1024x64_S2x1024x1024_2_2_1_1_0_0 64 rfl rfl).symm d) = ix3 b r d := funext fun a => Fin.ext (by
    match a with
    | ⟨0, _⟩ => exact lhs_scores_0 _ _
    | ⟨1, _⟩ => exact lhs_scores_1 _ _
    | ⟨2, _⟩ => exact (lhs_scores_2 _ _).trans hk)
  have er : dot_S2x1024x64_S2x1024x64_S2x1024x1024_2_2_1_1_0_0.rhsIdx (ix3 b r kk) ((contrEquiv1 dot_S2x1024x64_S2x1024x64_S2x1024x1024_2_2_1_1_0_0 64 rfl rfl).symm d) = ix3 b kk d := funext fun a => Fin.ext (by
    match a with
    | ⟨0, _⟩ => exact rhs_scores_0 _ _
    | ⟨1, _⟩ => exact rhs_scores_1 _ _
    | ⟨2, _⟩ => exact (rhs_scores_2 _ _).trans hk)
  rw [el, er]

/-! The weighted values' dimension numbers: batch axis 0 on both sides, the left operand's key axis 2 contracted against the right
    operand's row axis 1, columns from the right operand's axis 2. -/
theorem lhs_values_0 (i : S2x1024x65.Idx) (q : dot_S2x1024x1024_S2x1024x65_S2x1024x65_2_1_1_2_0_0.contr.Idx) :
    (dot_S2x1024x1024_S2x1024x65_S2x1024x65_2_1_1_2_0_0.lhsIdx i q 0).val = (i 0).val := by
  unfold DotDims.lhsIdx
  rw [dif_pos (show (0 : Fin S2x1024x1024.rank) ∈ dot_S2x1024x1024_S2x1024x65_S2x1024x65_2_1_1_2_0_0.lhsBatch by decide)]
  rfl
theorem lhs_values_1 (i : S2x1024x65.Idx) (q : dot_S2x1024x1024_S2x1024x65_S2x1024x65_2_1_1_2_0_0.contr.Idx) :
    (dot_S2x1024x1024_S2x1024x65_S2x1024x65_2_1_1_2_0_0.lhsIdx i q 1).val = (i 1).val := by
  unfold DotDims.lhsIdx
  rw [dif_neg (show ¬(1 : Fin S2x1024x1024.rank) ∈ dot_S2x1024x1024_S2x1024x65_S2x1024x65_2_1_1_2_0_0.lhsBatch by decide), dif_pos (show (1 : Fin S2x1024x1024.rank) ∈ dot_S2x1024x1024_S2x1024x65_S2x1024x65_2_1_1_2_0_0.lhsNonContracting by decide)]
  rfl
theorem lhs_values_2 (i : S2x1024x65.Idx) (q : dot_S2x1024x1024_S2x1024x65_S2x1024x65_2_1_1_2_0_0.contr.Idx) :
    (dot_S2x1024x1024_S2x1024x65_S2x1024x65_2_1_1_2_0_0.lhsIdx i q 2).val = (q ⟨0, by decide⟩).val :=
  dot_S2x1024x1024_S2x1024x65_S2x1024x65_2_1_1_2_0_0.lhsIdx_val_of_single rfl i q
theorem rhs_values_0 (i : S2x1024x65.Idx) (q : dot_S2x1024x1024_S2x1024x65_S2x1024x65_2_1_1_2_0_0.contr.Idx) :
    (dot_S2x1024x1024_S2x1024x65_S2x1024x65_2_1_1_2_0_0.rhsIdx i q 0).val = (i 0).val := by
  unfold DotDims.rhsIdx
  rw [dif_pos (show (0 : Fin S2x1024x65.rank) ∈ dot_S2x1024x1024_S2x1024x65_S2x1024x65_2_1_1_2_0_0.rhsBatch by decide)]
  rfl
theorem rhs_values_1 (i : S2x1024x65.Idx) (q : dot_S2x1024x1024_S2x1024x65_S2x1024x65_2_1_1_2_0_0.contr.Idx) :
    (dot_S2x1024x1024_S2x1024x65_S2x1024x65_2_1_1_2_0_0.rhsIdx i q 1).val = (q ⟨0, by decide⟩).val :=
  dot_S2x1024x1024_S2x1024x65_S2x1024x65_2_1_1_2_0_0.rhsIdx_val_of_single rfl i q
theorem rhs_values_2 (i : S2x1024x65.Idx) (q : dot_S2x1024x1024_S2x1024x65_S2x1024x65_2_1_1_2_0_0.contr.Idx) :
    (dot_S2x1024x1024_S2x1024x65_S2x1024x65_2_1_1_2_0_0.rhsIdx i q 2).val = (i 2).val := by
  unfold DotDims.rhsIdx
  rw [dif_neg (show ¬(2 : Fin S2x1024x65.rank) ∈ dot_S2x1024x1024_S2x1024x65_S2x1024x65_2_1_1_2_0_0.rhsBatch by decide), dif_pos (show (2 : Fin S2x1024x65.rank) ∈ dot_S2x1024x1024_S2x1024x65_S2x1024x65_2_1_1_2_0_0.rhsNonContracting by decide)]
  rfl

/-- The weighted values' product into the zero accumulator, at `(b, r, j)`: the sum over the block's 1024 key rows of the weight of
    row `kk` times column `j` of that row. -/
theorem matmul_values_apply {φ₁ φ₂ : FTy} (p : FVec Ideal S2x1024x1024 φ₁) (w : FVec Ideal S2x1024x65 φ₂) (b : Fin 2) (r : Fin 1024) (j : Fin 65) :
    FloatOps.matmul dot_S2x1024x1024_S2x1024x65_S2x1024x65_2_1_1_2_0_0 none p w (constant (F := Ideal) S2x1024x65 .f32 0x00000000#32) (ix3 b r j)
      = ∑ kk : Fin 1024, p (ix3 b r kk) * w (ix3 b kk j) := by
  rw [Ideal.matmul_constant_zero_apply, ← Equiv.sum_comp (contrEquiv1 dot_S2x1024x1024_S2x1024x65_S2x1024x65_2_1_1_2_0_0 1024 rfl rfl).symm]
  refine Finset.sum_congr rfl fun kk _ => ?_
  have hk := contrEquiv1_symm_val dot_S2x1024x1024_S2x1024x65_S2x1024x65_2_1_1_2_0_0 1024 rfl rfl kk
  have el : dot_S2x1024x1024_S2x1024x65_S2x1024x65_2_1_1_2_0_0.lhsIdx (ix3 b r j) ((contrEquiv1 dot_S2x1024x1024_S2x1024x65_S2x1024x65_2_1_1_2_0_0 1024 rfl rfl).symm kk) = ix3 b r kk := funext fun a => Fin.ext (by
    match a with
    | ⟨0, _⟩ => exact lhs_values_0 _ _
    | ⟨1, _⟩ => exact lhs_values_1 _ _
    | ⟨2, _⟩ => exact (lhs_values_2 _ _).trans hk)
  have er : dot_S2x1024x1024_S2x1024x65_S2x1024x65_2_1_1_2_0_0.rhsIdx (ix3 b r j) ((contrEquiv1 dot_S2x1024x1024_S2x1024x65_S2x1024x65_2_1_1_2_0_0 1024 rfl rfl).symm kk) = ix3 b kk j := funext fun a => Fin.ext (by
    match a with
    | ⟨0, _⟩ => exact rhs_values_0 _ _
    | ⟨1, _⟩ => exact (rhs_values_1 _ _).trans hk
    | ⟨2, _⟩ => exact rhs_values_2 _ _)
  rw [el, er]

end Contractions

/-! ## The payloads -/

/-- The reset value of the running maximum is `-∞`. -/
theorem pay2_apply (b : Fin 2) (r : Fin 1024) (z : Fin 1) : (k0_pay2 (F := Ideal)) (ix3 b r z) = (⊥ : EReal) := by
  unfold k0_pay2
  simp only [shapeCast_self]
  exact Cert.SoftmaxMath.ofBits_neg_inf

/-- The reset value of the running sums is `0`. -/
theorem pay3_apply (b : Fin 2) (r : Fin 1024) (j : Fin 65) : (k0_pay3 (F := Ideal)) (ix3 b r j) = (0 : EReal) := by
  unfold k0_pay3
  simp only [shapeCast_self]
  exact Cert.SoftmaxMath.ofBits_zero

/-- The scaled query: each entry times `1/8`. -/
theorem pay4_apply (x : FVec Ideal S2x1024x64 .f32) (b : Fin 2) (r : Fin 1024) (d : Fin 64) :
    k0_pay4 (F := Ideal) x (ix3 b r d) = x (ix3 b r d) * ((1 / 8 : ℝ) : EReal) := by
  unfold k0_pay4
  simp only [shapeCast_self]
  show x (ix3 b r d) * Ideal.ofBits .f32 0x3E000000#32 = _
  rw [Cert.SoftmaxMath.ofBits_eighth]

/-- A score: query row `r` against key row `kk` of the block, summed over the 64 features. -/
theorem pay5_apply (q k : FVec Ideal S2x1024x64 .bf16) (b : Fin 2) (r kk : Fin 1024) :
    k0_pay5 (F := Ideal) q k (ix3 b r kk) = ∑ d : Fin 64, q (ix3 b r d) * k (ix3 b kk d) := by
  unfold k0_pay5
  simp only [shapeCast_self]
  exact matmul_scores_apply q k b r kk

/-- The new running maximum: the old one against the maximum, from `-∞`, of the row's scores in the block. -/
theorem pay6_apply (q k : FVec Ideal S2x1024x64 .bf16) (mp : FVec Ideal S2x1024x1 .f32) (b : Fin 2) (r : Fin 1024) (z : Fin 1) :
    k0_pay6 (F := Ideal) q k mp (ix3 b r z)
      = max (mp (ix3 b r z)) ((Finset.univ : Finset (Fin 1024)).fold max (⊥ : EReal) (fun kk => k0_pay5 (F := Ideal) q k (ix3 b r kk))) := by
  unfold k0_pay6
  refine (maximumf_apply _ _ _).trans ?_
  refine congrArg (max (mp (ix3 b r z))) ?_
  refine (shapeCast_addLastUnit_apply _ _ b r z).trans ?_
  -- the row maximum: the fold of `max` from the accumulator's value, which is `-∞`, over the reduced axis's coordinates
  refine (Ideal.multiReduction_maximumf_single _ _ _ _ _ _).trans ?_
  rw [Ideal.ofBits_def, Cert.SoftmaxMath.ofBits_neg_inf]
  refine congrArg (fun f => Finset.fold max (⊥ : EReal) f Finset.univ) (funext fun kk => ?_)
  -- the reduced index `(b, r)` with `kk` put back on axis 2 is `(b, r, kk)`
  exact congrArg (k0_pay5 (F := Ideal) q k) (funext fun a => Fin.ext (by
    match a with
    | ⟨0, _⟩ => rfl
    | ⟨1, _⟩ => rfl
    | ⟨2, _⟩ => rfl))

/-- What is stored as the running maximum is that value. -/
theorem pay8_apply (q k : FVec Ideal S2x1024x64 .bf16) (mp : FVec Ideal S2x1024x1 .f32) (b : Fin 2) (r : Fin 1024) (z : Fin 1) :
    k0_pay8 (F := Ideal) q k mp (ix3 b r z) = k0_pay6 (F := Ideal) q k mp (ix3 b r z) := by
  unfold k0_pay8
  simp only [shapeCast_self]

/-- The new running sums: the old ones times `exp (old maximum - new maximum)`, plus the block's rows weighted by
    `exp (score - new maximum)`. -/
theorem pay7_apply (q k : FVec Ideal S2x1024x64 .bf16) (v : FVec Ideal S2x1024x65 .bf16) (mp : FVec Ideal S2x1024x1 .f32)
    (acc : FVec Ideal S2x1024x65 .f32) (b : Fin 2) (r : Fin 1024) (j : Fin 65) :
    k0_pay7 (F := Ideal) q k v mp acc (ix3 b r j)
      = Ideal.exp (mp (ix3 b r 0) - k0_pay6 (F := Ideal) q k mp (ix3 b r 0)) * acc (ix3 b r j)
        + ∑ kk : Fin 1024, Ideal.exp (k0_pay5 (F := Ideal) q k (ix3 b r kk) - k0_pay6 (F := Ideal) q k mp (ix3 b r 0)) * v (ix3 b kk j) := by
  unfold k0_pay7
  simp only [shapeCast_self]
  refine (addf_apply _ _ _).trans ?_
  refine congrArg₂ (· + ·) ?_ ?_
  · -- the old sums, rescaled: the factor is read in the one column of the maxima
    refine (mulf_apply _ _ _).trans ?_
    refine congrArg (· * acc (ix3 b r j)) ?_
    refine (broadcastTo_lastUnit_apply _ _ b r j).trans ?_
    refine (exp_apply _ _).trans ?_
    exact congrArg Ideal.exp (subf_apply _ _ _)
  · -- the block's weighted values: the contraction over the key rows, each weight read at its own score
    refine (matmul_values_apply _ _ b r j).trans ?_
    refine Finset.sum_congr rfl fun kk _ => ?_
    refine congrArg (· * v (ix3 b kk j)) ?_
    refine (truncf_apply (φ := .f32) (ψ := .bf16) _ _ _).trans ?_
    refine (exp_apply _ _).trans ?_
    refine congrArg Ideal.exp ?_
    refine (subf_apply _ _ _).trans ?_
    exact congrArg (k0_pay5 (F := Ideal) q k (ix3 b r kk) - ·) (broadcastTo_lastUnit_apply _ _ b r kk)

/-- The output: column `d` of the running sums divided by column 64. -/
theorem pay1_apply (acc : FVec Ideal S2x1024x65 .f32) (b : Fin 2) (r : Fin 1024) (d : Fin 64) :
    k0_pay1 (F := Ideal) acc (ix3 b r d) = Ideal.div (acc (ix3 b r ⟨d.val, by omega⟩)) (acc (ix3 b r ⟨64, by norm_num⟩)) := by
  unfold k0_pay1
  refine (divf_apply _ _ _).trans ?_
  refine congrArg₂ Ideal.div ?_ ?_
  · -- the first 64 columns, taken from offset 0
    exact extractStridedSlice_apply _ acc _ (ix3 b r d) (ix3 b r ⟨d.val, by omega⟩) fun a => match a with
      | ⟨0, _⟩ => by show b.val = 0 + b.val; omega
      | ⟨1, _⟩ => by show r.val = 0 + r.val; omega
      | ⟨2, _⟩ => by show d.val = 0 + d.val; omega
  · -- column 64, taken as a one-column slice and read along the whole row
    refine (broadcastTo_lastUnit_apply _ _ b r d).trans ?_
    exact extractStridedSlice_apply _ acc _ (ix3 b r 0) (ix3 b r ⟨64, by norm_num⟩) fun a => match a with
      | ⟨0, _⟩ => by show b.val = 0 + b.val; omega
      | ⟨1, _⟩ => by show r.val = 0 + r.val; omega
      | ⟨2, _⟩ => by show 64 = 64 + 0; rfl

end Cert.KernelIdeal.PayIdx

end
-- ==== Proof.Steps.lean ====
/-
  One key block's update of the running maximum and the running sums, and the final quotient, in real numbers.

  When the scaled query block, the key block and the value block hold real numbers `qs`, `kr`, `vr`, a row's scores against the
  block are the reals `sc b r kk = ∑ d, qs b r d * kr b kk d`. The new running maximum is then a real `M'` (whatever the old one was:
  `-∞` after a reset, or a real), and the new running sums are `∑ kk, exp (sc - M') * vr` after a reset, and
  `exp (M - M') * a + ∑ kk, exp (sc - M') * vr` over real old sums `a` taken with the real old maximum `M`.
-/
import proofs.«421855_j39676907886676_3_alg».proof.Proof.PayIdx
import proofs.«421855_j39676907886676_3_alg».proof.Proof.SoftmaxMath

noncomputable section

open scoped BigOperators
open Idealize.ShloMosaic Idealize.ShloMosaic.ValueIdx

namespace Cert.KernelIdeal.Steps

open Cert.KernelIdeal Cert.KernelIdeal.Gen Cert.KernelIdeal.PayIdx Cert.SoftmaxMath

/-- A row's score against row `kk` of the key block, over real blocks. -/
def sc (qs kr : Fin 2 → Fin 1024 → Fin 64 → ℝ) (b : Fin 2) (r kk : Fin 1024) : ℝ := ∑ d : Fin 64, qs b r d * kr b kk d

section
variable (q k : FVec Ideal S2x1024x64 .bf16) (v : FVec Ideal S2x1024x65 .bf16)
  (qs kr : Fin 2 → Fin 1024 → Fin 64 → ℝ) (vr : Fin 2 → Fin 1024 → Fin 65 → ℝ)
  (hq : ∀ b r d, q (ix3 b r d) = ((qs b r d : ℝ) : EReal))
  (hk : ∀ b kk d, k (ix3 b kk d) = ((kr b kk d : ℝ) : EReal))
  (hv : ∀ b kk j, v (ix3 b kk j) = ((vr b kk j : ℝ) : EReal))

include hq hk in
/-- The block's scores are those reals. -/
theorem pay5_real (b : Fin 2) (r kk : Fin 1024) :
    k0_pay5 (F := Ideal) q k (ix3 b r kk) = ((sc qs kr b r kk : ℝ) : EReal) := by
  rw [pay5_apply, sc, coe_sum]
  refine Finset.sum_congr rfl fun d _ => ?_
  rw [hq, hk, EReal.coe_mul]

include hq hk in
/-- The new running maximum is a real, from `-∞` or from a real. -/
theorem max_real (mp : FVec Ideal S2x1024x1 .f32)
    (hmp : ∀ b r, mp (ix3 b r 0) = ⊥ ∨ ∃ M : ℝ, mp (ix3 b r 0) = ((M : ℝ) : EReal)) (b : Fin 2) (r : Fin 1024) :
    ∃ M' : ℝ, k0_pay6 (F := Ideal) q k mp (ix3 b r 0) = ((M' : ℝ) : EReal) := by
  rw [pay6_apply]
  have e : (fun kk : Fin 1024 => k0_pay5 (F := Ideal) q k (ix3 b r kk)) = fun kk : Fin 1024 => ((sc qs kr b r kk : ℝ) : EReal) :=
    funext fun kk => pay5_real q k qs kr hq hk b r kk
  rw [e]
  exact running_max_real (by norm_num) _ (hmp b r) (fun kk => sc qs kr b r kk)

include hq hk hv in
/-- After a reset: the running maximum is a real `Mv b r`, and the running sums are the block's rows weighted by `exp (sc - Mv)`. -/
theorem step_first :
    ∃ Mv : Fin 2 → Fin 1024 → ℝ,
      (∀ b r z, k0_pay8 (F := Ideal) q k (k0_pay2 (F := Ideal)) (ix3 b r z) = ((Mv b r : ℝ) : EReal))
      ∧ ∀ b r j, k0_pay7 (F := Ideal) q k v (k0_pay2 (F := Ideal)) (k0_pay3 (F := Ideal)) (ix3 b r j)
          = ((∑ kk : Fin 1024, Real.exp (sc qs kr b r kk - Mv b r) * vr b kk j : ℝ) : EReal) := by
  have hM := fun b r => max_real q k qs kr hq hk (k0_pay2 (F := Ideal)) (fun b r => Or.inl (pay2_apply b r 0)) b r
  choose Mv hMv using hM
  refine ⟨Mv, fun b r z => ?_, fun b r j => ?_⟩
  · obtain rfl : z = 0 := Subsingleton.elim _ _
    rw [pay8_apply, hMv]
  · rw [pay7_apply, hMv, pay2_apply, pay3_apply]
    have e : (fun kk : Fin 1024 => Ideal.exp (k0_pay5 (F := Ideal) q k (ix3 b r kk) - ((Mv b r : ℝ) : EReal)) * v (ix3 b kk j))
        = fun kk : Fin 1024 => Ideal.exp (((sc qs kr b r kk : ℝ) : EReal) - ((Mv b r : ℝ) : EReal)) * ((vr b kk j : ℝ) : EReal) :=
      funext fun kk => by rw [pay5_real q k qs kr hq hk b r kk, hv]
    rw [e]
    exact first_block (Mv b r) (fun kk => sc qs kr b r kk) (fun kk => vr b kk j)

include hq hk hv in
/-- Over a real old maximum `Mp` and real old sums `a`: the new maximum is a real `Mv b r`, the new sums the old ones rescaled
    plus the block's weighted rows. -/
theorem step_later (mp : FVec Ideal S2x1024x1 .f32) (acc : FVec Ideal S2x1024x65 .f32)
    (Mp : Fin 2 → Fin 1024 → ℝ) (a : Fin 2 → Fin 1024 → Fin 65 → ℝ)
    (hmp : ∀ b r z, mp (ix3 b r z) = ((Mp b r : ℝ) : EReal)) (hacc : ∀ b r j, acc (ix3 b r j) = ((a b r j : ℝ) : EReal)) :
    ∃ Mv : Fin 2 → Fin 1024 → ℝ,
      (∀ b r z, k0_pay8 (F := Ideal) q k mp (ix3 b r z) = ((Mv b r : ℝ) : EReal))
      ∧ ∀ b r j, k0_pay7 (F := Ideal) q k v mp acc (ix3 b r j)
          = ((Real.exp (Mp b r - Mv b r) * a b r j + ∑ kk : Fin 1024, Real.exp (sc qs kr b r kk - Mv b r) * vr b kk j : ℝ) : EReal) := by
  have hM := fun b r => max_real q k qs kr hq hk mp (fun b r => Or.inr ⟨Mp b r, hmp b r 0⟩) b r
  choose Mv hMv using hM
  refine ⟨Mv, fun b r z => ?_, fun b r j => ?_⟩
  · obtain rfl : z = 0 := Subsingleton.elim _ _
    rw [pay8_apply, hMv]
  · rw [pay7_apply, hMv, hmp, hacc]
    have e : (fun kk : Fin 1024 => Ideal.exp (k0_pay5 (F := Ideal) q k (ix3 b r kk) - ((Mv b r : ℝ) : EReal)) * v (ix3 b kk j))
        = fun kk : Fin 1024 => Ideal.exp (((sc qs kr b r kk : ℝ) : EReal) - ((Mv b r : ℝ) : EReal)) * ((vr b kk j : ℝ) : EReal) :=
      funext fun kk => by rw [pay5_real q k qs kr hq hk b r kk, hv]
    rw [e]
    exact later_block (Mp b r) (Mv b r) (a b r j) (fun kk => sc qs kr b r kk) (fun kk => vr b kk j)

end

/-- The quotient at the end, over real sums whose column 64 is not zero. -/
theorem final_div (acc : FVec Ideal S2x1024x65 .f32) (a : Fin 2 → Fin 1024 → Fin 65 → ℝ)
    (hacc : ∀ b r j, acc (ix3 b r j) = ((a b r j : ℝ) : EReal)) (hz : ∀ b r, a b r ⟨64, by norm_num⟩ ≠ 0)
    (b : Fin 2) (r : Fin 1024) (d : Fin 64) :
    k0_pay1 (F := Ideal) acc (ix3 b r d)
      = ((a b r ⟨d.val, by omega⟩ * (1 / a b r ⟨64, by norm_num⟩) : ℝ) : EReal) := by
  rw [pay1_apply, hacc, hacc, Ideal.div_coe (hz b r), ← EReal.coe_mul]

end Cert.KernelIdeal.Steps

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.AttnSpec.lean ====
/-
  What both programs compute, as one function of three real arrays.

  For a batch `b`, a query row `q` and a key row `k` the score is `∑ d, (Q b q d / 8) * K b k d`; the result at `(b, q, d)` is the
  average of the values `V b k d` over the key rows `k`, weighted by `exp` of the scores (a softmax-weighted average).
  The 8192 key rows, and the 8192 query rows, come in 8 blocks of 1024: row `1024 * t + r` is entry `r` of block `t`.
-/
import proofs.«421855_j39676907886676_3_alg».proof.Proof.SoftmaxMath
import proofs.«421855_j39676907886676_3_alg».proof.Proof.LibBlockSum
import Idealize.ShloMosaic.Lib.ValueIdx

noncomputable section

open scoped BigOperators
open Idealize.ShloMosaic Idealize.ShloMosaic.ValueIdx

namespace Cert.Attn

/-- A real array of shape [2, 8192, 64]. -/
abbrev Arr : Type := (⟨3, ![2, 8192, 64]⟩ : Shape).Idx → ℝ

/-- Entry `r` of block `t` among the 8192 rows: row `1024 * t + r`. -/
abbrev bi (t : Fin 8) (r : Fin 1024) : Fin 8192 := Cert.LibBlockSum.blockIdx (B := 8) (R := 1024) (N := 8192) (by norm_num) t r

theorem bi_val (t : Fin 8) (r : Fin 1024) : (bi t r).val = 1024 * t.val + r.val := rfl

/-- The score of key row `k` for query row `q`, the query scaled by `1/8` first. -/
def score (Q K : Arr) (b : Fin 2) (q k : Fin 8192) : ℝ := ∑ d : Fin 64, (Q (ix3 b q d) * (1 / 8)) * K (ix3 b k d)

/-- The value rows with a column of ones appended: column 64 is `1`. -/
def vaug (V : Arr) (b : Fin 2) (k : Fin 8192) (j : Fin 65) : ℝ := if h : j.val < 64 then V (ix3 b k ⟨j.val, h⟩) else 1

/-- The result at `(b, q, d)`: the softmax-weighted average of column `d` of the values. -/
def out (Q K V : Arr) (b : Fin 2) (q : Fin 8192) (d : Fin 64) : ℝ :=
  Cert.SoftmaxMath.avg (fun k : Fin 8192 => score Q K b q k) (fun k : Fin 8192 => V (ix3 b k d))

/-- The result array, on the extended reals. -/
def G (Q K V : Arr) : (⟨3, ![2, 8192, 64]⟩ : Shape).Idx → EReal := fun i => ((out Q K V (i 0) (i 1) (i 2) : ℝ) : EReal)

theorem G_apply (Q K V : Arr) (b : Fin 2) (q : Fin 8192) (d : Fin 64) : G Q K V (ix3 b q d) = ((out Q K V b q d : ℝ) : EReal) := rfl

end Cert.Attn

end
-- ==== Proof.Blocks.lean ====
/-
  The three input blocks a grid point reads, entry by entry, as entries of the program's argument arrays.

  Point `t` of the 8 × 8 grid is query tile `t / 8` and key block `t % 8`. The query block is rows `1024 * (t / 8) + r` of the
  first argument; the key block is rows `1024 * (t % 8) + kk` of the second (its change of float format is the identity on
  the extended reals); the value block is the same rows of the third argument with a column of ones appended as column 64.
-/
import proofs.«421855_j39676907886676_3_alg».proof.Proof.Gen.KernelIdeal.Frame
import proofs.«421855_j39676907886676_3_alg».proof.Proof.AttnSpec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Cert.Attn

namespace Cert.KernelIdeal.Blocks

open Cert.KernelIdeal Cert.KernelIdeal.Gen

variable (m : (ℓ : Loc nD τ sig) → Buf (Elt Ideal) ℓ)

/-- The query tile of grid point `t`. -/
def qt (t : Fin cfg0.N) : Fin 8 := ⟨t.val / 8, by have h := t.isLt; have hN : cfg0.N = 64 := N_0; omega⟩

/-- The key block of grid point `t`. -/
def kt (t : Fin cfg0.N) : Fin 8 := ⟨t.val % 8, by omega⟩

theorem qt_val (t : Fin cfg0.N) : (qt t).val = t.val / 8 := rfl
theorem kt_val (t : Fin cfg0.N) : (kt t).val = t.val % 8 := rfl

/-- Where the three input windows' index maps send grid point `t`: the query window to block `t / 8` of the rows,
    the key and value windows to block `t % 8`; the other two axes are not cut. Decided over the 64 points. -/
theorem idx_facts : ∀ t : Fin cfg0.N,
    (win0_0.index t 0 = 0 ∧ win0_0.index t 1 = t.val / 8 ∧ win0_0.index t 2 = 0)
    ∧ (win0_1.index t 0 = 0 ∧ win0_1.index t 1 = t.val % 8 ∧ win0_1.index t 2 = 0)
    ∧ (win0_2.index t 0 = 0 ∧ win0_2.index t 1 = t.val % 8 ∧ win0_2.index t 2 = 0) :=
  (by decide +kernel : ∀ t : Fin grid0.N,
    (win0_0.index t 0 = 0 ∧ win0_0.index t 1 = t.val / 8 ∧ win0_0.index t 2 = 0)
    ∧ (win0_1.index t 0 = 0 ∧ win0_1.index t 1 = t.val % 8 ∧ win0_1.index t 2 = 0)
    ∧ (win0_2.index t 0 = 0 ∧ win0_2.index t 1 = t.val % 8 ∧ win0_2.index t 2 = 0))

/-- The query block at point `t`: rows `1024 * (t / 8) + r` of the first argument. -/
theorem iblk0_apply (c : Dev nD) (t : Fin cfg0.N) (b : Fin 2) (r : Fin 1024) (d : Fin 64) :
    (iblk m c 0 t : Vec Ideal S2x1024x64 .f32) (ix3 b r d) = m ((c : Thread nD τ).loc main_arg0) (ix3 b (bi (qt t) r) d) := by
  obtain ⟨⟨h0, h1, h2⟩, -, -⟩ := idx_facts t
  unfold iblk
  rw [View.read_apply]
  show V m c main_arg0 _ = _
  rw [V_main_arg0]
  congr 1
  funext a
  apply Fin.ext
  match a with
  | ⟨0, _⟩ => show win0_0.index t 0 * 2 + 1 * b.val = b.val; rw [h0]; omega
  | ⟨1, _⟩ => show win0_0.index t 1 * 1024 + 1 * r.val = 1024 * (t.val / 8) + r.val; rw [h1]; omega
  | ⟨2, _⟩ => show win0_0.index t 2 * 64 + 1 * d.val = d.val; rw [h2]; omega

/-- The key block at point `t`: rows `1024 * (t % 8) + kk` of the second argument. -/
theorem iblk1_apply (c : Dev nD) (t : Fin cfg0.N) (b : Fin 2) (kk : Fin 1024) (d : Fin 64) :
    (iblk m c 1 t : Vec Ideal S2x1024x64 .bf16) (ix3 b kk d) = m ((c : Thread nD τ).loc main_arg1) (ix3 b (bi (kt t) kk) d) := by
  obtain ⟨-, ⟨h0, h1, h2⟩, -⟩ := idx_facts t
  -- the staged array is the second argument after a change of float format: the identity on the extended reals
  have e : (V m c main_v0 : S2x8192x64.Idx → EReal) = (m ((c : Thread nD τ).loc main_arg1) : S2x8192x64.Idx → EReal) := by
    dsimp only [Gen.V, Gen.hostOps0]; after_results; rfl
  unfold iblk
  rw [View.read_apply]
  show (V m c main_v0 : S2x8192x64.Idx → EReal) _ = _
  rw [e]
  congr 1
  funext a
  apply Fin.ext
  match a with
  | ⟨0, _⟩ => show win0_1.index t 0 * 2 + 1 * b.val = b.val; rw [h0]; omega
  | ⟨1, _⟩ => show win0_1.index t 1 * 1024 + 1 * kk.val = 1024 * (t.val % 8) + kk.val; rw [h1]; omega
  | ⟨2, _⟩ => show win0_1.index t 2 * 64 + 1 * d.val = d.val; rw [h2]; omega

/-- The array the value window stages, as the host built it: the third argument with a column holding the constant
    of bit pattern `0x3F800000` appended along the last axis (the final change of float format is the identity on the
    extended reals). -/
theorem V_main_v3 (c : Dev nD) : (V m c main_v3 : S2x8192x65.Idx → EReal)
    = concatenate S2x8192x65 2
        [⟨S2x8192x64, (m ((c : Thread nD τ).loc main_arg2) : S2x8192x64.Idx → EReal)⟩,
         ⟨S2x8192x1, broadcastInDim S2x8192x1 ![] bcast_S_S2x8192x1 (constant (F := Ideal) S_ .f32 0x3F800000#32)⟩]
        concatenates_S2x8192x64_S2x8192x1_S2x8192x65_d2 := by
  dsimp only [Gen.V, Gen.hostOps0]; after_results; rfl

/-- The value block at point `t` is rows `1024 * (t % 8) + kk` of the staged array. -/
theorem iblk2_eq (c : Dev nD) (t : Fin cfg0.N) (b : Fin 2) (kk : Fin 1024) (j : Fin 65) :
    (iblk m c 2 t : Vec Ideal S2x1024x65 .bf16) (ix3 b kk j)
      = (V m c main_v3 : S2x8192x65.Idx → EReal) (ix3 b (bi (kt t) kk) j) := by
  obtain ⟨-, -, ⟨h0, h1, h2⟩⟩ := idx_facts t
  unfold iblk
  rw [View.read_apply]
  show (V m c main_v3 : S2x8192x65.Idx → EReal) _ = _
  congr 1
  funext a
  apply Fin.ext
  match a with
  | ⟨0, _⟩ => show win0_2.index t 0 * 2 + 1 * b.val = b.val; rw [h0]; omega
  | ⟨1, _⟩ => show win0_2.index t 1 * 1024 + 1 * kk.val = 1024 * (t.val % 8) + kk.val; rw [h1]; omega
  | ⟨2, _⟩ => show win0_2.index t 2 * 65 + 1 * j.val = j.val; rw [h2]; omega

/-- The value block at point `t`, a column below 64: rows `1024 * (t % 8) + kk` of the third argument. -/
theorem iblk2_apply_lt (c : Dev nD) (t : Fin cfg0.N) (b : Fin 2) (kk : Fin 1024) (j : Fin 65) (hj : j.val < 64) :
    (iblk m c 2 t : Vec Ideal S2x1024x65 .bf16) (ix3 b kk j) = m ((c : Thread nD τ).loc main_arg2) (ix3 b (bi (kt t) kk) ⟨j.val, hj⟩) := by
  rw [iblk2_eq, V_main_v3]
  -- a column below 64 lies in the first piece of the concatenation
  exact concatenate_pair_apply_left (t := S2x8192x65) (s₁ := S2x8192x64) (s₂ := S2x8192x1) 2 _ _ _
    (ix3 b (bi (kt t) kk) j) rfl (ix3 b (bi (kt t) kk) ⟨j.val, hj⟩)
    (fun a => by match a with | ⟨0, _⟩ => rfl | ⟨1, _⟩ => rfl | ⟨2, _⟩ => rfl)

/-- The value block at point `t`, column 64: the appended ones. -/
theorem iblk2_apply_last (c : Dev nD) (t : Fin cfg0.N) (b : Fin 2) (kk : Fin 1024) (j : Fin 65) (hj : ¬ j.val < 64) :
    (iblk m c 2 t : Vec Ideal S2x1024x65 .bf16) (ix3 b kk j) = ((1 : ℝ) : EReal) := by
  have hj64 : j.val = 64 := by have := j.isLt; omega
  rw [iblk2_eq, V_main_v3]
  -- column 64 is column 0 of the second piece, the broadcast constant
  rw [concatenate_pair_apply_right (t := S2x8192x65) (s₁ := S2x8192x64) (s₂ := S2x8192x1) 2 _ _ _
    (ix3 b (bi (kt t) kk) j) rfl rfl (ix3 b (bi (kt t) kk) 0)
    (fun a ha => by
      match a with
      | ⟨0, _⟩ => rfl
      | ⟨1, _⟩ => rfl
      | ⟨2, _⟩ => exact absurd rfl ha)
    (by show (0 : Nat) + 64 = j.val; omega)]
  show Ideal.ofBits .f32 0x3F800000#32 = _
  exact Cert.SoftmaxMath.ofBits_one

end Cert.KernelIdeal.Blocks

end
-- ==== Proof.PartialSums.lean ====
/-
  Sums over the key rows taken block by block: the sum over the first `n` blocks of `exp (s - M) * w`, how it grows by one block
  while `M` is replaced by `M'`, and that over all the blocks it is the sum over all the rows.
-/
import proofs.«421855_j39676907886676_3_alg».proof.Proof.SoftmaxMath
import proofs.«421855_j39676907886676_3_alg».proof.Proof.LibBlockSum

noncomputable section

open scoped BigOperators

namespace Cert.SoftmaxMath

open Cert.LibBlockSum

/-- Block `kb`'s part of the running sum taken with `M`. -/
def blockTerm {R : ℕ} (s w : ℕ → Fin R → ℝ) (M : ℝ) (kb : ℕ) : ℝ := ∑ kk : Fin R, Real.exp (s kb kk - M) * w kb kk

/-- The running sum over the first `n` blocks, taken with `M`. -/
def psum {R : ℕ} (s w : ℕ → Fin R → ℝ) (n : ℕ) (M : ℝ) : ℝ := ∑ kb ∈ Finset.range n, blockTerm s w M kb

/-- Over one block it is that block's part. -/
theorem psum_one {R : ℕ} (s w : ℕ → Fin R → ℝ) (M : ℝ) : psum s w 1 M = blockTerm s w M 0 := by
  unfold psum
  rw [Finset.sum_range_one]

/-- One more block: the running sum taken with `M`, rescaled to `M'`, plus the new block's part taken with `M'`. -/
theorem psum_succ {R : ℕ} (s w : ℕ → Fin R → ℝ) (n : ℕ) (M M' : ℝ) :
    Real.exp (M - M') * psum s w n M + blockTerm s w M' n = psum s w (n + 1) M' := by
  unfold psum
  rw [Finset.sum_range_succ, Finset.mul_sum]
  congr 1
  refine Finset.sum_congr rfl fun kb _ => ?_
  exact rescale Finset.univ M M' (s kb) (w kb)

/-- Over all `B` blocks of `R` rows the running sum is the sum over all `N = B * R` rows. -/
theorem psum_blocks {B R N : ℕ} (h : B * R = N) (f g : Fin N → ℝ) (M : ℝ) :
    psum (fun kb kk => if hb : kb < B then f (blockIdx h ⟨kb, hb⟩ kk) else 0)
        (fun kb kk => if hb : kb < B then g (blockIdx h ⟨kb, hb⟩ kk) else 0) B M
      = ∑ k : Fin N, Real.exp (f k - M) * g k := by
  rw [sum_blocks h, psum, Finset.sum_range]
  refine Finset.sum_congr rfl fun t _ => ?_
  unfold blockTerm
  refine Finset.sum_congr rfl fun r _ => ?_
  dsimp only
  rw [dif_pos t.isLt, dif_pos t.isLt]

end Cert.SoftmaxMath

end
-- ==== Proof.Inv.lean ====
/-
  What the three kept buffers hold after every grid point, by induction on the point.

  Point `t` is query tile `t / 8` and key block `t % 8`. After it, for every batch `b` and row `r` of the tile (query row
  `q = 1024 * (t / 8) + r`): the scaled-query buffer holds `Q b q d / 8`; the running maximum is some real `M`; and the running sums
  are `∑ exp (score b q k - M) * vaug b k j` over the key rows `k` of blocks `0 … t % 8`. After the last key block of a tile the output
  block is the quotient of columns `d` and 64 of those sums, which is the softmax-weighted average.
-/
import proofs.«421855_j39676907886676_3_alg».proof.Proof.Pieces
import proofs.«421855_j39676907886676_3_alg».proof.Proof.Steps
import proofs.«421855_j39676907886676_3_alg».proof.Proof.Blocks
import proofs.«421855_j39676907886676_3_alg».proof.Proof.PartialSums

set_option maxRecDepth 16384

noncomputable section

open scoped BigOperators
open Idealize.ShloMosaic Idealize.ShloMosaic.TcCoe Idealize.SL.Sem Idealize.ShloMosaic.ValueIdx
open Cert.Attn Cert.SoftmaxMath

namespace Cert.KernelIdeal.Inv

open Cert.KernelIdeal Cert.KernelIdeal.Gen Cert.KernelIdeal.Blocks Cert.KernelIdeal.Steps

variable (m : (ℓ : Loc nD τ sig) → Buf (Elt Ideal) ℓ) (c : Dev nD)

/-- The three blocks point `t` reads, at their literal types. -/
abbrev xq (t : Fin cfg0.N) : Vec Ideal S2x1024x64 .f32 := iblk m c 0 t
abbrev xk (t : Fin cfg0.N) : Vec Ideal S2x1024x64 .bf16 := iblk m c 1 t
abbrev xv (t : Fin cfg0.N) : Vec Ideal S2x1024x65 .bf16 := iblk m c 2 t

/-- What the buffers hold after point `n`, and after the point before it. -/
abbrev outs (t : Fin cfg0.N) := outsAt0 m c t.val t.isLt
abbrev prev (t : Fin cfg0.N) := outsAt0 m c (t.val - 1) (Nat.lt_of_le_of_lt (Nat.sub_le _ _) t.isLt)

/-! ## The buffers after a point, case by case, as the body's pure terms -/

theorem outs_A (t : Fin cfg0.N) (h0 : t.val % 8 = 0) (h1 : ¬t.val % 8 = 7) :
    (outs m c t).2.1 = k0_pay8 (F := Ideal) (k0_pay4 (F := Ideal) (xq m c t)) (xk m c t) (k0_pay2 (F := Ideal))
    ∧ (outs m c t).2.2.1 = k0_pay7 (F := Ideal) (k0_pay4 (F := Ideal) (xq m c t)) (xk m c t) (xv m c t) (k0_pay2 (F := Ideal)) (k0_pay3 (F := Ideal))
    ∧ (outs m c t).2.2.2 = k0_pay4 (F := Ideal) (xq m c t) := by
  refine ⟨?_, ?_, ?_⟩
  · show (outsAt0 m c t.val t.isLt).2.1 = _
    rw [outsAt0_A m c t h0 h1]; dsimp only
    exact Pieces.sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.1 = _
    rw [outsAt0_A m c t h0 h1]; dsimp only
    exact Pieces.sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  · show (outsAt0 m c t.val t.isLt).2.2.2 = _
    rw [outsAt0_A m c t h0 h1]; dsimp only
    exact Pieces.sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem outs_B (t : Fin cfg0.N) (h0 : ¬t.val % 8 = 0) (h1 : ¬t.val % 8 = 7) :
    (outs m c t).2.1 = k0_pay8 (F := Ideal) (prev m c t).2.2.2 (xk m c t) (prev m c t).2.1
    ∧ (outs m c t).2.2.1 = k0_pay7 (F := Ideal) (prev m c t).2.2.2 (xk m c t) (xv m c t) (prev m c t).2.1 (prev m c t).2.2.1
    ∧ (outs m c t).2.2.2 = (prev m c t).2.2.2 := by
  refine ⟨?_, ?_, ?_⟩
  · show (outsAt0 m c t.val t.isLt).2.1 = _
    rw [outsAt0_B m c t h0 h1]; dsimp only
    exact Pieces.sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2
  · show (outsAt0 m c t.val t.isLt).2.2.1 = _
    rw [outsAt0_B m c t h0 h1]; dsimp only
    exact Pieces.sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2
  · show (outsAt0 m c t.val t.isLt).2.2.2 = _
    rw [outsAt0_B m c t h0 h1]; dsimp only
    exact Pieces.sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2

theorem outs_C (t : Fin cfg0.N) (h0 : ¬t.val % 8 = 0) (h1 : t.val % 8 = 7) :
    (outs m c t).2.1 = k0_pay8 (F := Ideal) (prev m c t).2.2.2 (xk m c t) (prev m c t).2.1
    ∧ (outs m c t).2.2.1 = k0_pay7 (F := Ideal) (prev m c t).2.2.2 (xk m c t) (xv m c t) (prev m c t).2.1 (prev m c t).2.2.1
    ∧ (outs m c t).2.2.2 = (prev m c t).2.2.2
    ∧ (outs m c t).1 = k0_pay1 (F := Ideal) (k0_pay7 (F := Ideal) (prev m c t).2.2.2 (xk m c t) (xv m c t) (prev m c t).2.1 (prev m c t).2.2.1) := by
  refine ⟨?_, ?_, ?_, ?_⟩
  · show (outsAt0 m c t.val t.isLt).2.1 = _
    rw [outsAt0_C m c t h0 h1]; dsimp only
    exact Pieces.sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2
  · show (outsAt0 m c t.val t.isLt).2.2.1 = _
    rw [outsAt0_C m c t h0 h1]; dsimp only
    exact Pieces.sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2
  · show (outsAt0 m c t.val t.isLt).2.2.2 = _
    rw [outsAt0_C m c t h0 h1]; dsimp only
    exact Pieces.sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2
  · show (outsAt0 m c t.val t.isLt).1 = _
    rw [outsAt0_C m c t h0 h1]; dsimp only
    exact Pieces.oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2

/-! ## The real numbers behind the blocks -/

variable (Q K V : Arr)

/-- The scores of query row `q` against the rows of key block `kb` (zero past the eight blocks). -/
def sblk (b : Fin 2) (q : Fin 8192) (kb : ℕ) (kk : Fin 1024) : ℝ := if h : kb < 8 then score Q K b q (bi ⟨kb, h⟩ kk) else 0

/-- Column `j` of the value rows of key block `kb`, the appended column of ones included (zero past the eight blocks). -/
def wblk (b : Fin 2) (j : Fin 65) (kb : ℕ) (kk : Fin 1024) : ℝ := if h : kb < 8 then vaug V b (bi ⟨kb, h⟩ kk) j else 0

theorem sblk_of (t : Fin cfg0.N) (kb : ℕ) (hkb : kb = t.val % 8) (b : Fin 2) (q : Fin 8192) (kk : Fin 1024) :
    sblk Q K b q kb kk = score Q K b q (bi (kt t) kk) := by
  subst hkb
  unfold sblk
  rw [dif_pos (by omega)]
  rfl

theorem wblk_of (t : Fin cfg0.N) (kb : ℕ) (hkb : kb = t.val % 8) (b : Fin 2) (j : Fin 65) (kk : Fin 1024) :
    wblk V b j kb kk = vaug V b (bi (kt t) kk) j := by
  subst hkb
  unfold wblk
  rw [dif_pos (by omega)]
  rfl

/-- Over all eight blocks the running sum is the sum over all 8192 key rows. -/
theorem psum_full (b : Fin 2) (q : Fin 8192) (j : Fin 65) (M : ℝ) :
    psum (sblk Q K b q) (wblk V b j) 8 M = ∑ k : Fin 8192, Real.exp (score Q K b q k - M) * vaug V b k j :=
  psum_blocks (B := 8) (R := 1024) (N := 8192) (by norm_num) (fun k => score Q K b q k) (fun k => vaug V b k j) M

/-- The scaled query, the key and the value blocks of point `t`, in real numbers. -/
def qs (t : Fin cfg0.N) : Fin 2 → Fin 1024 → Fin 64 → ℝ := fun b r d => Q (ix3 b (bi (qt t) r) d) * (1 / 8)
def kr (t : Fin cfg0.N) : Fin 2 → Fin 1024 → Fin 64 → ℝ := fun b kk d => K (ix3 b (bi (kt t) kk) d)
def vr (t : Fin cfg0.N) : Fin 2 → Fin 1024 → Fin 65 → ℝ := fun b kk j => vaug V b (bi (kt t) kk) j

/-- A row's score against a row of the block is the score of the two rows in the whole arrays. -/
theorem sc_eq (t : Fin cfg0.N) (b : Fin 2) (r kk : Fin 1024) :
    sc (qs Q t) (kr K t) b r kk = score Q K b (bi (qt t) r) (bi (kt t) kk) := rfl

variable (hQ : m ((c : Thread nD τ).loc main_arg0) = (fun i => ((Q i : ℝ) : EReal)))
  (hK : m ((c : Thread nD τ).loc main_arg1) = (fun i => ((K i : ℝ) : EReal)))
  (hV : m ((c : Thread nD τ).loc main_arg2) = (fun i => ((V i : ℝ) : EReal)))

include hQ in
theorem q4_real (t : Fin cfg0.N) (b : Fin 2) (r : Fin 1024) (d : Fin 64) :
    k0_pay4 (F := Ideal) (xq m c t) (ix3 b r d) = ((qs Q t b r d : ℝ) : EReal) := by
  rw [PayIdx.pay4_apply]
  refine (congrArg (· * ((1 / 8 : ℝ) : EReal)) ((iblk0_apply m c t b r d).trans (congrFun hQ _))).trans ?_
  exact (EReal.coe_mul _ _).symm

include hK in
theorem xk_real (t : Fin cfg0.N) (b : Fin 2) (kk : Fin 1024) (d : Fin 64) :
    xk m c t (ix3 b kk d) = ((kr K t b kk d : ℝ) : EReal) :=
  (iblk1_apply m c t b kk d).trans (congrFun hK _)

include hV in
theorem xv_real (t : Fin cfg0.N) (b : Fin 2) (kk : Fin 1024) (j : Fin 65) :
    xv m c t (ix3 b kk j) = ((vr V t b kk j : ℝ) : EReal) := by
  unfold vr vaug
  by_cases hj : j.val < 64
  · rw [dif_pos hj]
    exact (iblk2_apply_lt m c t b kk j hj).trans (congrFun hV _)
  · rw [dif_neg hj]
    exact iblk2_apply_last m c t b kk j hj

/-! ## The invariant -/

/-- After point `t`: the scaled query of the tile, a real running maximum, and the running sums over key blocks `0 … t % 8`. -/
def Holds (t : Fin cfg0.N) : Prop :=
  (∀ b r d, (outs m c t).2.2.2 (ix3 b r d) = ((qs Q t b r d : ℝ) : EReal))
  ∧ ∃ Mv : Fin 2 → Fin 1024 → ℝ,
      (∀ b r z, (outs m c t).2.1 (ix3 b r z) = ((Mv b r : ℝ) : EReal))
      ∧ ∀ b r j, (outs m c t).2.2.1 (ix3 b r j)
          = ((psum (sblk Q K b (bi (qt t) r)) (wblk V b j) (t.val % 8 + 1) (Mv b r) : ℝ) : EReal)

include hQ hK hV in
/-- The first key block of a tile establishes it. -/
theorem holds_first (t : Fin cfg0.N) (h0 : t.val % 8 = 0) : Holds m c Q K V t := by
  have h1 : ¬t.val % 8 = 7 := by omega
  obtain ⟨e0, e1, e2⟩ := outs_A m c t h0 h1
  have hq := q4_real m c Q hQ t
  obtain ⟨Mv, hM, hS⟩ := step_first (k0_pay4 (F := Ideal) (xq m c t)) (xk m c t) (xv m c t) (qs Q t) (kr K t) (vr V t) hq
    (xk_real m c K hK t) (xv_real m c V hV t)
  refine ⟨fun b r d => by rw [e2]; exact hq b r d, Mv, fun b r z => by rw [e0]; exact hM b r z, fun b r j => ?_⟩
  rw [e1, hS b r j]
  congr 1
  have hn : t.val % 8 + 1 = 1 := by omega
  rw [hn, psum_one]
  unfold blockTerm
  refine Finset.sum_congr rfl fun kk _ => ?_
  rw [sblk_of Q K t 0 h0.symm, wblk_of V t 0 h0.symm, sc_eq]
  rfl

include hQ hK hV in
/-- A later key block keeps it. -/
theorem holds_later (t t' : Fin cfg0.N) (h0 : ¬t.val % 8 = 0) (ht' : t'.val = t.val - 1) (ih : Holds m c Q K V t') :
    Holds m c Q K V t := by
  have hqt : qt t' = qt t := Fin.ext (by rw [qt_val, qt_val, ht']; omega)
  have hp : outs m c t' = prev m c t := by
    obtain ⟨n', hn'⟩ := t'
    dsimp only at ht'
    subst ht'
    rfl
  obtain ⟨iq, Mp, iM, iS⟩ := ih
  rw [hp] at iq iM iS
  have hq : ∀ b r d, (prev m c t).2.2.2 (ix3 b r d) = ((qs Q t b r d : ℝ) : EReal) := fun b r d => by
    rw [iq b r d]; unfold qs; rw [hqt]
  have hn' : t'.val % 8 + 1 = t.val % 8 := by rw [ht']; omega
  have hacc : ∀ b r j, (prev m c t).2.2.1 (ix3 b r j)
      = ((psum (sblk Q K b (bi (qt t) r)) (wblk V b j) (t.val % 8) (Mp b r) : ℝ) : EReal) := fun b r j => by
    rw [iS b r j, hqt, hn']
  have key : ∃ Mv : Fin 2 → Fin 1024 → ℝ,
      (∀ b r z, k0_pay8 (F := Ideal) (prev m c t).2.2.2 (xk m c t) (prev m c t).2.1 (ix3 b r z) = ((Mv b r : ℝ) : EReal))
      ∧ ∀ b r j, k0_pay7 (F := Ideal) (prev m c t).2.2.2 (xk m c t) (xv m c t) (prev m c t).2.1 (prev m c t).2.2.1 (ix3 b r j)
          = ((psum (sblk Q K b (bi (qt t) r)) (wblk V b j) (t.val % 8 + 1) (Mv b r) : ℝ) : EReal) := by
    obtain ⟨Mv, hM, hS⟩ := step_later (prev m c t).2.2.2 (xk m c t) (xv m c t) (qs Q t) (kr K t) (vr V t) hq
      (xk_real m c K hK t) (xv_real m c V hV t) (prev m c t).2.1 (prev m c t).2.2.1 Mp
      (fun b r j => psum (sblk Q K b (bi (qt t) r)) (wblk V b j) (t.val % 8) (Mp b r)) iM hacc
    refine ⟨Mv, hM, fun b r j => ?_⟩
    rw [hS b r j]
    congr 1
    rw [← psum_succ (sblk Q K b (bi (qt t) r)) (wblk V b j) (t.val % 8) (Mp b r) (Mv b r)]
    congr 1
    unfold blockTerm
    refine Finset.sum_congr rfl fun kk _ => ?_
    rw [sblk_of Q K t (t.val % 8) rfl, wblk_of V t (t.val % 8) rfl, sc_eq]
    rfl
  obtain ⟨Mv, hM, hS⟩ := key
  by_cases h1 : t.val % 8 = 7
  · obtain ⟨e0, e1, e2, _⟩ := outs_C m c t h0 h1
    exact ⟨fun b r d => by rw [e2]; exact hq b r d, Mv, fun b r z => by rw [e0]; exact hM b r z,
      fun b r j => by rw [e1]; exact hS b r j⟩
  · obtain ⟨e0, e1, e2⟩ := outs_B m c t h0 h1
    exact ⟨fun b r d => by rw [e2]; exact hq b r d, Mv, fun b r z => by rw [e0]; exact hM b r z,
      fun b r j => by rw [e1]; exact hS b r j⟩

include hQ hK hV in
/-- It holds after every point. -/
theorem holds : ∀ (n : ℕ) (h : n < cfg0.N), Holds m c Q K V ⟨n, h⟩
  | 0, h => holds_first m c Q K V hQ hK hV ⟨0, h⟩ rfl
  | n + 1, h => by
    by_cases h0 : (n + 1) % 8 = 0
    · exact holds_first m c Q K V hQ hK hV ⟨n + 1, h⟩ h0
    · exact holds_later m c Q K V hQ hK hV ⟨n + 1, h⟩ ⟨n, Nat.lt_of_succ_lt h⟩ h0 rfl (holds n (Nat.lt_of_succ_lt h))

/-! ## The output block after the last key block of a tile -/

include hQ hK hV in
/-- After the last key block the output block holds the softmax-weighted averages of the tile's query rows. -/
theorem out_last (t : Fin cfg0.N) (h1 : t.val % 8 = 7) (b : Fin 2) (r : Fin 1024) (d : Fin 64) :
    (outs m c t).1 (ix3 b r d) = ((out Q K V b (bi (qt t) r) d : ℝ) : EReal) := by
  have h0 : ¬t.val % 8 = 0 := by omega
  obtain ⟨_, e1, _, e3⟩ := outs_C m c t h0 h1
  obtain ⟨_, Mv, _, hS⟩ := holds m c Q K V hQ hK hV t.val t.isLt
  have h8 : t.val % 8 + 1 = 8 := by omega
  haveI : Nonempty (Fin 8192) := ⟨⟨0, by norm_num⟩⟩
  have hS' : ∀ b r j, (outs m c t).2.2.1 (ix3 b r j)
      = ((∑ k : Fin 8192, Real.exp (score Q K b (bi (qt t) r) k - Mv b r) * vaug V b k j : ℝ) : EReal) := fun b r j => by
    rw [hS b r j, h8, psum_full]
  have hone : ∀ (b : Fin 2) (k : Fin 8192), vaug V b k ⟨64, by norm_num⟩ = 1 := fun b k => by
    unfold vaug; rw [dif_neg (by norm_num)]
  have hcol : ∀ (b : Fin 2) (k : Fin 8192), vaug V b k ⟨d.val, by omega⟩ = V (ix3 b k d) := fun b k => by
    unfold vaug; rw [dif_pos d.isLt]
  have hz : ∀ b r, (∑ k : Fin 8192, Real.exp (score Q K b (bi (qt t) r) k - Mv b r) * vaug V b k ⟨64, by norm_num⟩) ≠ 0 := fun b r => by
    refine (Finset.sum_pos (fun k _ => ?_) Finset.univ_nonempty).ne'
    rw [hone]; exact mul_pos (Real.exp_pos _) one_pos
  rw [e3, ← e1, final_div (outs m c t).2.2.1 _ hS' hz b r d]
  congr 1
  simp only [hone, hcol]
  exact quot_eq_avg (Mv b r) (fun k => score Q K b (bi (qt t) r) k) (fun k => V (ix3 b k d))

end Cert.KernelIdeal.Inv

end
-- ==== Proof.Final.lean ====
/-
  From the output blocks to the result array. The output block of query tile `qi` is written back once, after the tile's last key
  block (grid point `8 * qi + 7`), to rows `1024 * qi … 1024 * qi + 1023` of the result; the eight tiles cover the 8192 rows, so the
  result array is the softmax-weighted average at every index.
-/
import proofs.«421855_j39676907886676_3_alg».proof.Proof.Inv
import proofs.«421855_j39676907886676_3_alg».proof.Proof.Gen.KernelIdeal.Value

set_option maxRecDepth 16384

noncomputable section

open scoped BigOperators
open Idealize.ShloMosaic Idealize.ShloMosaic.TcCoe Idealize.SL.Sem Idealize.ShloMosaic.ValueIdx
open Idealize.ShloMosaic.Pipeline (Dat)
open Cert.Attn Cert.SoftmaxMath

namespace Cert.KernelIdeal.Final

open Cert.KernelIdeal Cert.KernelIdeal.Gen Cert.KernelIdeal.Blocks Cert.KernelIdeal.Inv

variable (m : (ℓ : Loc nD τ sig) → Buf (Elt Ideal) ℓ) (c : Dev nD) (Q K V : Arr)
  (hQ : m ((c : Thread nD τ).loc main_arg0) = (fun i => ((Q i : ℝ) : EReal)))
  (hK : m ((c : Thread nD τ).loc main_arg1) = (fun i => ((K i : ℝ) : EReal)))
  (hV : m ((c : Thread nD τ).loc main_arg2) = (fun i => ((V i : ℝ) : EReal)))

/-- The output window's block index at point `t` is `(0, t / 8, 0)`. -/
theorem idx_facts3 : ∀ t : Fin cfg0.N, win0_3.index t 0 = 0 ∧ win0_3.index t 1 = t.val / 8 ∧ win0_3.index t 2 = 0 :=
  (by decide +kernel : ∀ t : Fin grid0.N, win0_3.index t 0 = 0 ∧ win0_3.index t 1 = t.val / 8 ∧ win0_3.index t 2 = 0)

include hQ hK hV in
/-- What a writing-back point writes is its block of the result function. -/
theorem flushed_eq (t : Fin cfg0.N) (hf : (cfg0.win 3).flush t = true) :
    (dats m 0 c).flushed 3 t = ((cfg0.win 3).blk t).view.read (Elt Ideal) (G Q K V) := by
  have h7 : t.val % 8 = 7 := (flush0_3 t).mp hf
  obtain ⟨i0, i1, i2⟩ := idx_facts3 t
  rw [Value.flushed3]
  funext j
  obtain ⟨b, r, d, rfl⟩ : ∃ (b : Fin 2) (r : Fin 1024) (d : Fin 64), j = ix3 b r d := ⟨j 0, j 1, j 2, eq_ix3 j⟩
  rw [View.read_apply]
  show (outsAt0 m c t.val t.isLt).1 (ix3 b r d) = G Q K V (((cfg0.win 3).blk t).view.emb (ix3 b r d))
  have he : ((cfg0.win 3).blk t).view.emb (ix3 b r d) = ix3 b (bi (qt t) r) d := by
    funext a
    apply Fin.ext
    match a with
    | ⟨0, _⟩ => show win0_3.index t 0 * 2 + 1 * b.val = b.val; rw [i0]; omega
    | ⟨1, _⟩ => show win0_3.index t 1 * 1024 + 1 * r.val = 1024 * (t.val / 8) + r.val; rw [i1]; omega
    | ⟨2, _⟩ => show win0_3.index t 2 * 64 + 1 * d.val = d.val; rw [i2]; omega
  rw [he, G_apply]
  exact out_last m c Q K V hQ hK hV t h7 b r d

/-- An index of the result is in point `t`'s block iff each coordinate is in the block's range on its axis. -/
theorem mem_blk3 (t : Fin cfg0.N) (i : S2x8192x64.Idx) :
    i ∈ ((cfg0.win 3).blk t).view.set ↔ ∀ a : Fin 3, win0_3.index t a * S2x1024x64.size a ≤ (i a).val ∧ (i a).val < win0_3.index t a * S2x1024x64.size a + S2x1024x64.size a := by
  show i ∈ ((View.whole main_v4).slice (win0_3.rect t)).set ↔ _
  rw [View.set_slice_whole, Rect.mem_set_unit]
  exact Iff.rfl

/-- Every index of the result is in the block of the last point of its query tile. -/
theorem cover (i : S2x8192x64.Idx) : ∃ t : Fin cfg0.N, (cfg0.win 3).flush t = true ∧ i ∈ ((cfg0.win 3).blk t).view.set := by
  have hi0 : (i 0).val < 2 := (i 0).isLt
  have hi1 : (i 1).val < 8192 := (i 1).isLt
  have hi2 : (i 2).val < 64 := (i 2).isLt
  have hN : cfg0.N = 64 := N_0
  refine ⟨⟨8 * ((i 1).val / 1024) + 7, by omega⟩, (flush0_3 _).mpr (by dsimp only; omega), ?_⟩
  rw [mem_blk3]
  obtain ⟨e0, e1, e2⟩ := idx_facts3 ⟨8 * ((i 1).val / 1024) + 7, by omega⟩
  dsimp only at e1
  intro a
  match a with
  | ⟨0, _⟩ => show win0_3.index _ 0 * 2 ≤ (i 0).val ∧ (i 0).val < win0_3.index _ 0 * 2 + 2; rw [e0]; omega
  | ⟨1, _⟩ => show win0_3.index _ 1 * 1024 ≤ (i 1).val ∧ (i 1).val < win0_3.index _ 1 * 1024 + 1024; rw [e1]; omega
  | ⟨2, _⟩ => show win0_3.index _ 2 * 64 ≤ (i 2).val ∧ (i 2).val < win0_3.index _ 2 * 64 + 64; rw [e2]; omega

include hQ hK hV in
/-- The result array after the run. -/
theorem final : (dats m 0 c).arrAt 3 cfg0.N = G Q K V :=
  (dats m 0 c).arrAt_eq_of_cover 3 (G Q K V) (flushed_eq m c Q K V hQ hK hV) cover

end Cert.KernelIdeal.Final

end
-- ==== Proof.Finite.lean ====
/-
  Under the precondition every entry of the three argument arrays is a real number: the arrays are the coercions of real arrays.

  The precondition is the conjunction of three tests `all (|x| < +inf)`, one per argument. Each test is a reduction by `and` of the
  elementwise comparison `max x (-x) < ⊤`; a reduction by `and` that comes out 1 met a 1 at every index, so every entry `x` has
  `max x (-x) < ⊤`. That excludes `x = ⊤` directly and `x = ⊥` through `-⊥ = ⊤`, and an extended real that is neither is the
  coercion of its real part.
-/
import proofs.«421855_j39676907886676_3_alg».proof.Defs
import proofs.«421855_j39676907886676_3_alg».proof.Proof.AttnSpec
import Idealize.ShloMosaic.Lib.ReduceAll
import Idealize.ShloMosaic.Lib.ValueIdx

noncomputable section

open Idealize.ShloMosaic Idealize.ShloMosaic.TcCoe Idealize.SL.Sem Idealize.ShloMosaic.ValueIdx
open Cert.Attn

namespace Cert.Attn

open Cert.KernelIdeal

/-- The bit pattern of positive infinity denotes the top of the extended reals. -/
theorem ofBits_pos_inf : Ideal.ofBits .f32 0x7F800000#32 = (⊤ : EReal) := by
  simp [Ideal.ofBits, Ideal.ieee]

/-- An extended real whose absolute value `max x (-x)` lies strictly below positive infinity is neither infinity:
    `x = ⊤` gives `max ⊤ ⊥ = ⊤`, and `x = ⊥` gives `max ⊥ ⊤ = ⊤`. So it is the coercion of its real part. -/
theorem real_of_abs_lt_top (x : EReal)
    (h : Ideal.cmp .olt (max x (-x)) (Ideal.ofBits .f32 0x7F800000#32) = 1#1) :
    x = ((x.toReal : ℝ) : EReal) := by
  rw [ofBits_pos_inf] at h
  induction x using EReal.rec with
  | bot => simp [Ideal.cmp] at h
  | coe r => rfl
  | top => simp [Ideal.cmp] at h

/-- The shape of a scalar has a single index. -/
instance : Subsingleton Cert.Pre_finite_inputs.S_.Idx := ⟨fun a b => funext fun d => d.elim0⟩

/-- One conjunct of the precondition: if the reduction by `and` of the elementwise test `|x| < +inf` is 1, then every entry of `x`
    is a real number. -/
theorem real_of_all_finite {axes : List (Fin Cert.Pre_finite_inputs.S2x8192x64.rank)}
    (x : Cert.Pre_finite_inputs.S2x8192x64.Idx → EReal)
    (hb : Cert.Pre_finite_inputs.S_.BroadcastsInDim Cert.Pre_finite_inputs.S2x8192x64 (![] : Fin 0 → Fin Cert.Pre_finite_inputs.S2x8192x64.rank))
    (init : Cert.Pre_finite_inputs.S_.Idx → BitVec 1)
    (hr : Cert.Pre_finite_inputs.S2x8192x64.ReducesTo axes Cert.Pre_finite_inputs.S_)
    (hu : 0 < Cert.Pre_finite_inputs.S_.numel)
    (e : Host.reduce IntOp.andi
          (cmpf (F := Ideal) (φ := .f32) .olt (Host.absf x)
            (broadcastInDim Cert.Pre_finite_inputs.S2x8192x64 ![] hb (constant Cert.Pre_finite_inputs.S_ .f32 0x7F800000#32)))
          init hr hu ix0 = 1#1) :
    x = fun i => ((EReal.toReal (x i) : ℝ) : EReal) := by
  funext i
  exact real_of_abs_lt_top (x i) (Host.reduce_andi_all _ init hr hu ix0 e i)

/-- Every entry of the three arguments is finite, so each argument is a real array seen in the extended reals. -/
theorem real_inputs [hP : Cert.Pre_finite_inputs.Facts] (m : (ℓ : Loc nD τ sig) → Buf (Elt Ideal) ℓ) (h : Cert.Pre_KernelIdeal m) (c : Dev nD) :
    ∃ Q K V : Arr,
      m ((c : Thread nD τ).loc main_arg0) = (fun i => ((Q i : ℝ) : EReal))
      ∧ m ((c : Thread nD τ).loc main_arg1) = (fun i => ((K i : ℝ) : EReal))
      ∧ m ((c : Thread nD τ).loc main_arg2) = (fun i => ((V i : ℝ) : EReal)) := by
  -- the precondition at its one index, with the printed predicate unfolded: `(t0 and t1) and t2 = 1`
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨fun i => EReal.toReal (m ((c : Thread nD τ).loc main_arg0) i),
    fun i => EReal.toReal (m ((c : Thread nD τ).loc main_arg1) i),
    fun i => EReal.toReal (m ((c : Thread nD τ).loc main_arg2) i),
    real_of_all_finite _ _ _ _ _ h0', real_of_all_finite _ _ _ _ _ h1, real_of_all_finite _ _ _ _ _ h2⟩

end Cert.Attn

end
-- ==== Proof.Ref.lean ====
/-
  The reference program's result, read one operation at a time, is the softmax-weighted average: its scores are
  `(∑ d, Q * K) / 8`, which is `∑ d, (Q / 8) * K`; it subtracts the row's maximum (a real number) before `exp`, divides each weight by the
  row's sum of weights, and sums the weighted values over the 8192 key rows.
-/
import proofs.«421855_j39676907886676_3_alg».proof.Proof.Gen.ReferenceIdeal.Read
import proofs.«421855_j39676907886676_3_alg».proof.Proof.AttnSpec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Cert.Attn

namespace Cert.ReferenceIdeal.RefValue

open Cert.ReferenceIdeal Cert.ReferenceIdeal.Gen Cert.ReferenceIdeal.Read

/-- The coercion of a real array into the extended reals. -/
abbrev co (A : Arr) : (⟨S2x8192x64, .f32⟩ : BufTy).Contents (Elt Ideal) := fun i => ((A i : ℝ) : EReal)

/-! ## Where each stage reads its operands -/

theorem lidx0 (b : Fin 2) (q k : Fin 8192) (d : Fin 64) : lidx_main_v0 (ix3 b q k) d = ix3 b q d :=
  funext fun a => Fin.ext (by match a with | ⟨0, _⟩ => rfl | ⟨1, _⟩ => rfl | ⟨2, _⟩ => rfl)

theorem ridx0 (b : Fin 2) (q k : Fin 8192) (d : Fin 64) : ridx_main_v0 (ix3 b q k) d = ix3 b k d :=
  funext fun a => Fin.ext (by match a with | ⟨0, _⟩ => rfl | ⟨1, _⟩ => rfl | ⟨2, _⟩ => rfl)

theorem idx67 (b : Fin 2) (q k : Fin 8192) : idx_main_v6 (idx_main_v7 (ix3 b q k)) = ix2 b q :=
  funext fun a => Fin.ext (by match a with | ⟨0, _⟩ => rfl | ⟨1, _⟩ => rfl)

theorem idx10 (b : Fin 2) (q k : Fin 8192) : idx_main_v10 (ix2 b q) k = ix3 b q k :=
  funext fun a => Fin.ext (by match a with | ⟨0, _⟩ => rfl | ⟨1, _⟩ => rfl | ⟨2, _⟩ => rfl)

theorem idx1112 (b : Fin 2) (q k : Fin 8192) : idx_main_v11 (idx_main_v12 (ix3 b q k)) = ix2 b q :=
  funext fun a => Fin.ext (by match a with | ⟨0, _⟩ => rfl | ⟨1, _⟩ => rfl)

theorem lidx14 (b : Fin 2) (q k : Fin 8192) (d : Fin 64) : lidx_main_v14 (ix3 b q d) k = ix3 b q k :=
  funext fun a => Fin.ext (by match a with | ⟨0, _⟩ => rfl | ⟨1, _⟩ => rfl | ⟨2, _⟩ => rfl)

theorem ridx14 (b : Fin 2) (q k : Fin 8192) (d : Fin 64) : ridx_main_v14 (ix3 b q d) k = ix3 b k d :=
  funext fun a => Fin.ext (by match a with | ⟨0, _⟩ => rfl | ⟨1, _⟩ => rfl | ⟨2, _⟩ => rfl)

/-- A row index with the key coordinate put back is the full index. -/
theorem lift3 (h : S2x8192x8192.Reduces [2] S2x8192) (b : Fin 2) (q : Fin 8192) (k : Fin 8192) :
    h.lift (ix2 b q) k = ix3 b q k := by
  funext c; apply Fin.ext
  fin_cases c <;> rfl

/-! ## The scores -/

/-- The scaled product of a query row and a key row is the score: dividing the sum by 8 is scaling each term by 1/8. -/
theorem v2_at (Q K : Arr) (b : Fin 2) (q k : Fin 8192) :
    val_main_v2 (F := Ideal) (co Q) (co K) (ix3 b q k) = ((score Q K b q k : ℝ) : EReal) := by
  rw [val_main_v2_apply, val_main_v0_apply, val_main_v1_apply, val_main_cst_apply, Ideal.hostDivf_def, Ideal.ofBits_def,
    Cert.SoftmaxMath.ofBits_eight, Ideal.div_coe (by norm_num : (8 : ℝ) ≠ 0)]
  have e : ∀ d : Fin 64, co Q (lidx_main_v0 (ix3 b q k) d) * co K (ridx_main_v0 (ix3 b q k) d)
      = ((Q (ix3 b q d) * K (ix3 b k d) : ℝ) : EReal) := fun d => by
    rw [lidx0, ridx0, EReal.coe_mul]
  rw [Finset.sum_congr rfl fun d _ => e d, ← Cert.SoftmaxMath.coe_sum, ← EReal.coe_mul]
  refine congrArg _ ?_
  unfold score
  rw [Finset.sum_mul]
  refine Finset.sum_congr rfl fun d _ => ?_
  ring

/-! ## The row maximum is a real number -/

theorem v5_real (Q K : Arr) (b : Fin 2) (q : Fin 8192) :
    ∃ M : ℝ, val_main_v5 (F := Ideal) (co Q) (co K) (ix2 b q) = (M : EReal) := by
  obtain ⟨M, hM⟩ := Cert.SoftmaxMath.fold_max_bot_coe (Finset.univ : Finset (Fin 8192)) ⟨0, Finset.mem_univ _⟩
    (fun k => score Q K b q k)
  refine ⟨M, ?_⟩
  rw [val_main_v5_apply, val_main_v4_apply, val_main_cst_1_apply, Ideal.maximumf_def, Ideal.ofBits_def,
    Cert.SoftmaxMath.ofBits_neg_inf, max_bot_left]
  unfold val_main_v3
  rw [Host.reduce_eq_fold_single FloatOps.maximumf _ _ reducesTo_S2x8192x8192_S2x8192_d2 (by decide) h_S_,
    val_main_cst_0_apply, Ideal.ofBits_def, Cert.SoftmaxMath.ofBits_neg_inf]
  refine Eq.trans ?_ hM
  exact congrArg (fun f => Finset.fold max (⊥ : EReal) f (Finset.univ : Finset (Fin 8192)))
    (funext fun k => (congrArg (val_main_v2 (F := Ideal) (co Q) (co K)) (lift3 _ b q k)).trans (v2_at Q K b q k))

/-! ## The weights, their sum, the normalized weights -/

section Row
variable (Q K : Arr) (b : Fin 2) (q : Fin 8192) (M : ℝ)
  (hM : val_main_v5 (F := Ideal) (co Q) (co K) (ix2 b q) = (M : EReal))
include hM

theorem v9_at (k : Fin 8192) :
    val_main_v9 (F := Ideal) (co Q) (co K) (ix3 b q k) = ((Real.exp (score Q K b q k - M) : ℝ) : EReal) := by
  rw [val_main_v9_apply, val_main_v8_apply, val_main_v7_apply, val_main_v6_apply, idx67, hM, v2_at,
    Ideal.hostUnary_exp_def, Ideal.subf_def, ← EReal.coe_sub, Ideal.exp_coe]

theorem v10_at :
    val_main_v10 (F := Ideal) (co Q) (co K) (ix2 b q) = ((∑ k : Fin 8192, Real.exp (score Q K b q k - M) : ℝ) : EReal) := by
  rw [val_main_v10_apply, val_main_cst_2_apply, Ideal.ofBits_def, Cert.SoftmaxMath.ofBits_zero, zero_add,
    Cert.SoftmaxMath.coe_sum]
  refine Finset.sum_congr rfl fun k _ => ?_
  rw [idx10, v9_at Q K b q M hM]

theorem v13_at (k : Fin 8192) :
    val_main_v13 (F := Ideal) (co Q) (co K) (ix3 b q k)
      = ((Real.exp (score Q K b q k - M) * (1 / ∑ k' : Fin 8192, Real.exp (score Q K b q k' - M)) : ℝ) : EReal) := by
  have hz : (∑ k' : Fin 8192, Real.exp (score Q K b q k' - M)) ≠ 0 :=
    (Finset.sum_pos (fun k' _ => Real.exp_pos _) ⟨(0 : Fin 8192), Finset.mem_univ _⟩).ne'
  rw [val_main_v13_apply, val_main_v12_apply, val_main_v11_apply, idx1112, v10_at Q K b q M hM, v9_at Q K b q M hM,
    Ideal.hostDivf_def, Ideal.div_coe hz, ← EReal.coe_mul]

end Row

/-- On real arrays the reference's last stage is the softmax-weighted average. -/
theorem ref_eq (Q K V : Arr) :
    val_main_v14 (F := Ideal) (fun i => ((Q i : ℝ) : EReal)) (fun i => ((K i : ℝ) : EReal)) (fun i => ((V i : ℝ) : EReal)) = G Q K V := by
  show val_main_v14 (F := Ideal) (co Q) (co K) (co V) = G Q K V
  funext i
  obtain ⟨b, q, d, rfl⟩ : ∃ (b : Fin 2) (q : Fin 8192) (d : Fin 64), i = ix3 b q d := ⟨i 0, i 1, i 2, eq_ix3 i⟩
  obtain ⟨M, hM⟩ := v5_real Q K b q
  rw [val_main_v14_apply, G_apply]
  have e : ∀ k : Fin 8192, val_main_v13 (F := Ideal) (co Q) (co K) (lidx_main_v14 (ix3 b q d) k) * co V (ridx_main_v14 (ix3 b q d) k)
      = (((Real.exp (score Q K b q k - M) * (1 / ∑ k' : Fin 8192, Real.exp (score Q K b q k' - M))) * V (ix3 b k d) : ℝ) : EReal) := fun k => by
    rw [lidx14, ridx14, v13_at Q K b q M hM]
    exact (EReal.coe_mul _ _).symm
  rw [Finset.sum_congr rfl fun k _ => e k, ← Cert.SoftmaxMath.coe_sum]
  refine congrArg _ ?_
  exact Cert.SoftmaxMath.normalized_eq_avg M (fun k : Fin 8192 => score Q K b q k) (fun k : Fin 8192 => V (ix3 b k d))

end Cert.ReferenceIdeal.RefValue

end
-- ==== Proof.lean ====
/-
  The certificate's five claims for the blockwise attention kernel against softmax attention.

  On finite inputs both programs compute, at every index `(b, q, d)`, the average of the value rows `V b k d` weighted by
  `exp` of the scores `∑ d, (Q b q d / 8) * K b k d` (a softmax-weighted average). The reference takes the scores of all 8192 key
  rows at once, subtracts the row's maximum, normalizes and sums. The kernel visits the key rows in eight blocks per query tile,
  keeping a running maximum `M` and running sums `∑ exp (score - M) * v` (the values carry an extra column of ones, so column 64
  is the sum of the weights), rescaling the sums whenever `M` changes, and divides by column 64 after the last block. The running
  sums are the same sums whatever real `M` is, up to the common factor `exp (-M)`, which the final quotient cancels.
  The two frames of the kernel programs are the generated ones; the reference's frame is its generated run with the result dropped;
  the idealization rewrote nothing, so `preserves` is trivial.
-/
import proofs.«421855_j39676907886676_3_alg».proof.Defs
import proofs.«421855_j39676907886676_3_alg».proof.Proof.Gen.Kernel
import proofs.«421855_j39676907886676_3_alg».proof.Proof.Gen.Kernel.Skeleton
import proofs.«421855_j39676907886676_3_alg».proof.Proof.Gen.Kernel.Launch
import proofs.«421855_j39676907886676_3_alg».proof.Proof.Gen.Kernel.Points
import proofs.«421855_j39676907886676_3_alg».proof.Proof.Gen.Kernel.Frame
import proofs.«421855_j39676907886676_3_alg».proof.Proof.Gen.KernelIdeal
import proofs.«421855_j39676907886676_3_alg».proof.Proof.Gen.KernelIdeal.Skeleton
import proofs.«421855_j39676907886676_3_alg».proof.Proof.Gen.KernelIdeal.Launch
import proofs.«421855_j39676907886676_3_alg».proof.Proof.Gen.KernelIdeal.Points
import proofs.«421855_j39676907886676_3_alg».proof.Proof.Gen.KernelIdeal.Frame
import proofs.«421855_j39676907886676_3_alg».proof.Proof.Gen.ReferenceIdeal
import proofs.«421855_j39676907886676_3_alg».proof.Proof.Gen.Pre_finite_inputs
import proofs.«421855_j39676907886676_3_alg».proof.Proof.Gen.KernelIdeal.Value
import proofs.«421855_j39676907886676_3_alg».proof.Proof.Gen.ReferenceIdeal.Run
import proofs.«421855_j39676907886676_3_alg».proof.Proof.Gen.ReferenceIdeal.Read
import proofs.«421855_j39676907886676_3_alg».proof.Proof.Final
import proofs.«421855_j39676907886676_3_alg».proof.Proof.Finite
import proofs.«421855_j39676907886676_3_alg».proof.Proof.Ref
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre : Cert.Pre_finite_inputs.Facts]

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on finite arguments both programs end with the softmax-weighted average at every index. -/
theorem algebraic : Cert.algebraic_KernelIdeal_ReferenceIdeal := by
  intro m ρ m' ρ' hpre hagree
  choose Q K V hQ hK hV using fun c => Cert.Attn.real_inputs m hpre c
  refine ⟨fun c => Cert.Attn.G (Q c) (K c) (V c), ?_, ?_⟩
  · exact (θ_run Cert.KernelIdeal.defs _ _).mono
      (fun r h c => ⟨(h c).1.trans (Cert.KernelIdeal.Final.final m c (Q c) (K c) (V c) (hQ c) (hK c) (hV c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, (hagree c).1, (hagree c).2.1, (hagree c).2.2, hQ c, hK c, hV c]
    exact Cert.ReferenceIdeal.RefValue.ref_eq (Q c) (K c) (V c)

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
